-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x3072 : Shape := ⟨2, ![4096, 3072]⟩
abbrev S4096 : Shape := ⟨1, ![4096]⟩
abbrev S4096x128 : Shape := ⟨2, ![4096, 128]⟩
abbrev S10x128 : Shape := ⟨2, ![10, 128]⟩
abbrev S_ : Shape := ⟨0, ![]⟩

class Facts : Prop where
  bcast_S_S4096x3072 : S_.BroadcastsInDim S4096x3072 (![] : Fin 0 → Fin S4096x3072.rank)
  reducesTo_S4096x3072_S_d0_1 : S4096x3072.ReducesTo [0, 1] S_
  h_S_ : 0 < S_.numel
  bcast_S_S4096x128 : S_.BroadcastsInDim S4096x128 (![] : Fin 0 → Fin S4096x128.rank)
  reducesTo_S4096x128_S_d0_1 : S4096x128.ReducesTo [0, 1] S_
  bcast_S_S10x128 : S_.BroadcastsInDim S10x128 (![] : Fin 0 → Fin S10x128.rank)
  reducesTo_S10x128_S_d0_1 : S10x128.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg2 : IVec S4096 32) (main_arg5 : FVec F S10x128 .f32) (main_v13 : IVec S_ 1) (main_v16 : IVec S4096x128 1) : IVec S_ 1 :=
  let main_c_5 : IVec S_ 1 := constantI S_ 1 1#1
  let main_v17 : IVec S_ 1 := (fun x v => Host.reduce IntOp.andi x v reducesTo_S4096x128_S_d0_1 h_S_) main_v16 main_c_5
  let main_v18 : IVec S_ 1 := andi main_v13 main_v17
  let main_v19 : FVec F S10x128 .f32 := Host.absf main_arg5
  let main_cst_6 : FVec F S_ .f32 := constant S_ .f32 0x7F800000#32
  let main_v20 : FVec F S10x128 .f32 := broadcastInDim S10x128 ![] bcast_S_S10x128 main_cst_6
  let main_v21 : IVec S10x128 1 := cmpf .olt main_v19 main_v20
  let main_c_7 : IVec S_ 1 := constantI S_ 1 1#1
  let main_v22 : IVec S_ 1 := (fun x v => Host.reduce IntOp.andi x v reducesTo_S10x128_S_d0_1 h_S_) main_v21 main_c_7
  let main_v23 : IVec S_ 1 := andi main_v18 main_v22
  let main_c_8 : IVec S_ 32 := constantI S_ 32 0#32
  let main_v24 : IVec S4096 32 := broadcastInDim S4096 ![] bcast_S_S4096 main_c_8
  let main_v25 : IVec S4096 1 := cmpi .sge main_arg2 main_v24
  let main_c_9 : IVec S_ 1 := constantI S_ 1 1#1
  let main_v26 : IVec S_ 1 := (fun x v => Host.reduce IntOp.andi x v reducesTo_S4096_S_d0 h_S_) main_v25 main_c_9
  let main_v27 : IVec S_ 1 := andi main_v23 main_v26
  let main_c_10 : IVec S_ 32 := constantI S_ 32 10#32
  let main_v28 : IVec S4096 32 := broadcastInDim S4096 ![] bcast_S_S4096 main_c_10
  let main_v29 : IVec S4096 1 := cmpi .slt main_arg2 main_v28
  let main_c_11 : IVec S_ 1 := constantI S_ 1 1#1
  let main_v30 : IVec S_ 1 := (fun x v => Host.reduce IntOp.andi x v reducesTo_S4096_S_d0 h_S_) main_v29 main_c_11
  let main_v31 : IVec S_ 1 := andi main_v27 main_v30
  main_v31

def fn {F : FTy → Type} [FloatOps F] (main_arg0 : FVec F S4096x3072 .f32) (main_arg1 : FVec F S4096x3072 .f32) (main_arg2 : IVec S4096 32) (main_arg3 : FVec F S4096x128 .f32) (main_arg4 : FVec F S4096x128 .f32) (main_arg5 : FVec F S10x128 .f32) : IVec S_ 1 :=
  let main_v0 : FVec F S4096x3072 .f32 := Host.absf main_arg0
  let main_cst : FVec F S_ .f32 := constant S_ .f32 0x7F800000#32
  let main_v1 : FVec F S4096x3072 .f32 := broadcastInDim S4096x3072 ![] bcast_S_S4096x3072 main_cst
  let main_v2 : IVec S4096x3072 1 := cmpf .olt main_v0 main_v1
  let main_c : IVec S_ 1 := constantI S_ 1 1#1
  let main_v3 : IVec S_ 1 := (fun x v => Host.reduce IntOp.andi x v reducesTo_S4096x3072_S_d0_1 h_S_) main_v2 main_c
  let main_v4 : FVec F S4096x3072 .f32 := Host.absf main_arg1
  let main_cst_0 : FVec F S_ .f32 := constant S_ .f32 0x7F800000#32
  let main_v5 : FVec F S4096x3072 .f32 := broadcastInDim S4096x3072 ![] bcast_S_S4096x3072 main_cst_0
  let main_v6 : IVec S4096x3072 1 := cmpf .olt main_v4 main_v5
  let main_c_1 : IVec S_ 1 := constantI S_ 1 1#1
  let main_v7 : IVec S_ 1 := (fun x v => Host.reduce IntOp.andi x v reducesTo_S4096x3072_S_d0_1 h_S_) main_v6 main_c_1
  let main_v8 : IVec S_ 1 := andi main_v3 main_v7
  let main_v9 : FVec F S4096x128 .f32 := Host.absf main_arg3
  let main_cst_2 : FVec F S_ .f32 := constant S_ .f32 0x7F800000#32
  let main_v10 : FVec F S4096x128 .f32 := broadcastInDim S4096x128 ![] bcast_S_S4096x128 main_cst_2
  let main_v11 : IVec S4096x128 1 := cmpf .olt main_v9 main_v10
  let main_c_3 : IVec S_ 1 := constantI S_ 1 1#1
  let main_v12 : IVec S_ 1 := (fun x v => Host.reduce IntOp.andi x v reducesTo_S4096x128_S_d0_1 h_S_) main_v11 main_c_3
  let main_v13 : IVec S_ 1 := andi main_v8 main_v12
  let main_v14 : FVec F S4096x128 .f32 := Host.absf main_arg4
  let main_cst_4 : FVec F S_ .f32 := constant S_ .f32 0x7F800000#32
  let main_v15 : FVec F S4096x128 .f32 := broadcastInDim S4096x128 ![] bcast_S_S4096x128 main_cst_4
  let main_v16 : IVec S4096x128 1 := cmpf .olt main_v14 main_v15
  fn_part1 (F := F) main_arg2 main_arg5 main_v13 main_v16
-- ==== Kernel.lean ====
abbrev S4096x3072 : Shape := ⟨2, ![4096, 3072]⟩
abbrev S4096 : Shape := ⟨1, ![4096]⟩
abbrev S4096x128 : Shape := ⟨2, ![4096, 128]⟩
abbrev S10x128 : Shape := ⟨2, ![10, 128]⟩
abbrev S_ : Shape := ⟨0, ![]⟩
abbrev S10 : Shape := ⟨1, ![10]⟩
abbrev S10x1 : Shape := ⟨2, ![10, 1]⟩
abbrev S128x10 : Shape := ⟨2, ![128, 10]⟩
abbrev S10x10 : Shape := ⟨2, ![10, 10]⟩
abbrev S4096x1 : Shape := ⟨2, ![4096, 1]⟩
abbrev S16x8x128 : Shape := ⟨3, ![16, 8, 128]⟩
abbrev S256x3072 : Shape := ⟨2, ![256, 3072]⟩
abbrev S256x128 : Shape := ⟨2, ![256, 128]⟩
abbrev S256x1 : Shape := ⟨2, ![256, 1]⟩
abbrev S1x8x128 : Shape := ⟨3, ![1, 8, 128]⟩
abbrev S256 : Shape := ⟨1, ![256]⟩
abbrev S1 : Shape := ⟨1, ![1]⟩
abbrev S1x1 : Shape := ⟨2, ![1, 1]⟩
abbrev S1x1x1 : Shape := ⟨3, ![1, 1, 1]⟩
abbrev S1x10 : Shape := ⟨2, ![1, 10]⟩
abbrev S256x10 : Shape := ⟨2, ![256, 10]⟩
abbrev S16x1x1 : Shape := ⟨3, ![16, 1, 1]⟩
abbrev S16 : Shape := ⟨1, ![16]⟩

abbrev nBuf : Space → Nat
  | .hbm => 58
  | .vmem => 17
  | .smem => 0
  | _ => 0

abbrev bufTy : (tb : Table) → Fin (tcTables nBuf tb) → BufTy
  | .hbm, ⟨0, _⟩ => ⟨S4096x3072, .f32⟩
  | .hbm, ⟨1, _⟩ => ⟨S4096x3072, .f32⟩
  | .hbm, ⟨2, _⟩ => ⟨S4096, .i32⟩
  | .hbm, ⟨3, _⟩ => ⟨S4096x128, .f32⟩
  | .hbm, ⟨4, _⟩ => ⟨S4096x128, .f32⟩
  | .hbm, ⟨5, _⟩ => ⟨S10x128, .f32⟩
  | .hbm, ⟨6, _⟩ => ⟨S10x128, .f32⟩
  | .hbm, ⟨7, _⟩ => ⟨S_, .f32⟩
  | .hbm, ⟨8, _⟩ => ⟨S10, .f32⟩
  | .hbm, ⟨9, _⟩ => ⟨S10x1, .f32⟩
  | .hbm, ⟨10, _⟩ => ⟨S10x1, .f32⟩
  | .hbm, ⟨11, _⟩ => ⟨S10x128, .f32⟩
  | .hbm, ⟨12, _⟩ => ⟨S10x128, .f32⟩
  | .hbm, ⟨13, _⟩ => ⟨S128x10, .f32⟩
  | .hbm, ⟨14, _⟩ => ⟨S10x10, .f32⟩
  | .hbm, ⟨15, _⟩ => ⟨S10x10, .i32⟩
  | .hbm, ⟨16, _⟩ => ⟨S10x10, .i32⟩
  | .hbm, ⟨17, _⟩ => ⟨S_, .i32⟩
  | .hbm, ⟨18, _⟩ => ⟨S10x10, .i32⟩
  | .hbm, ⟨19, _⟩ => ⟨S10x10, .i32⟩
  | .hbm, ⟨20, _⟩ => ⟨S10x10, .i1⟩
  | .hbm, ⟨21, _⟩ => ⟨S10x10, .f32⟩
  | .hbm, ⟨22, _⟩ => ⟨S10x10, .f32⟩
  | .hbm, ⟨23, _⟩ => ⟨S10x10, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S4096x1, .i32⟩
  | .hbm, ⟨28, _⟩ => ⟨S16x8x128, .f32⟩
  | .hbm, ⟨29, _⟩ => ⟨S16x8x128, .f32⟩
  | .hbm, ⟨30, _⟩ => ⟨S16x8x128, .f32⟩
  | .hbm, ⟨31, _⟩ => ⟨S16x1x1, .f32⟩
  | .hbm, ⟨32, _⟩ => ⟨S16, .f32⟩
  | .hbm, ⟨33, _⟩ => ⟨S_, .f32⟩
  | .hbm, ⟨34, _⟩ => ⟨S_, .f32⟩
  | .hbm, ⟨35, _⟩ => ⟨S16x1x1, .f32⟩
  | .hbm, ⟨36, _⟩ => ⟨S16, .f32⟩
  | .hbm, ⟨37, _⟩ => ⟨S_, .f32⟩
  | .hbm, ⟨38, _⟩ => ⟨S_, .f32⟩
  | .hbm, ⟨39, _⟩ => ⟨S16x1x1, .f32⟩
  | .hbm, ⟨40, _⟩ => ⟨S16, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .local _ .vmem, ⟨0, _⟩ => ⟨S256x3072, .f32⟩
  | .local _ .vmem, ⟨1, _⟩ => ⟨S256x3072, .f32⟩
  | .local _ .vmem, ⟨2, _⟩ => ⟨S256x3072, .f32⟩
  | .local _ .vmem, ⟨3, _⟩ => ⟨S256x3072, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S10x128, .f32⟩
  | .local _ .vmem, ⟨9, _⟩ => ⟨S256x1, .i32⟩
  | .local _ .vmem, ⟨10, _⟩ => ⟨S256x1, .i32⟩
  | .local _ .vmem, ⟨11, _⟩ => ⟨S1x8x128, .f32⟩
  | .local _ .vmem, ⟨12, _⟩ => ⟨S1x8x128, .f32⟩
  | .local _ .vmem, ⟨13, _⟩ => ⟨S1x8x128, .f32⟩
  | .local _ .vmem, ⟨14, _⟩ => ⟨S1x8x128, .f32⟩
  | .local _ .vmem, ⟨15, _⟩ => ⟨S1x8x128, .f32⟩
  | .local _ .vmem, ⟨16, _⟩ => ⟨S1x8x128, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_call0_v2 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_call1_v0 : Ref sig .tc := ⟨.hbm, 23, rfl⟩
abbrev main_call1_cst : Ref sig .tc := ⟨.hbm, 24, rfl⟩
abbrev main_call1_v1 : Ref sig .tc := ⟨.hbm, 25, rfl⟩
abbrev main_v12 : Ref sig .tc := ⟨.hbm, 26, rfl⟩
abbrev main_v13 : Ref sig .tc := ⟨.hbm, 27, rfl⟩
abbrev main_v14_0 : Ref sig .tc := ⟨.hbm, 28, rfl⟩
abbrev main_v14_1 : Ref sig .tc := ⟨.hbm, 29, rfl⟩
abbrev main_v14_2 : Ref sig .tc := ⟨.hbm, 30, rfl⟩
abbrev main_v15 : Ref sig .tc := ⟨.hbm, 31, rfl⟩
abbrev main_v16 : Ref sig .tc := ⟨.hbm, 32, rfl⟩
abbrev main_cst : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_0 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_1 : Ref sig .tc := ⟨.hbm, 41, rfl⟩
abbrev main_v23 : Ref sig .tc := ⟨.hbm, 42, rfl⟩
abbrev main_cst_2 : Ref sig .tc := ⟨.hbm, 43, rfl⟩
abbrev main_v24 : Ref sig .tc := ⟨.hbm, 44, rfl⟩
abbrev main_cst_3 : Ref sig .tc := ⟨.hbm, 45, rfl⟩
abbrev main_v25 : Ref sig .tc := ⟨.hbm, 46, rfl⟩
abbrev main_cst_4 : Ref sig .tc := ⟨.hbm, 47, rfl⟩
abbrev main_v26 : Ref sig .tc := ⟨.hbm, 48, rfl⟩
abbrev main_cst_5 : Ref sig .tc := ⟨.hbm, 49, rfl⟩
abbrev main_v27 : Ref sig .tc := ⟨.hbm, 50, rfl⟩
abbrev main_v28 : Ref sig .tc := ⟨.hbm, 51, rfl⟩
abbrev main_cst_6 : Ref sig .tc := ⟨.hbm, 52, rfl⟩
abbrev main_v29 : Ref sig .tc := ⟨.hbm, 53, rfl⟩
abbrev main_v30 : Ref sig .tc := ⟨.hbm, 54, rfl⟩
abbrev main_cst_7 : Ref sig .tc := ⟨.hbm, 55, rfl⟩
abbrev main_v31 : Ref sig .tc := ⟨.hbm, 56, rfl⟩
abbrev main_v32 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S10x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  reducesTo_S10x128_S10_d1 : S10x128.ReducesTo [1] S10
  h_S_ : 0 < S_.numel
  bcast_S10_S10x1_0 : S10.BroadcastsInDim S10x1 (![0] : Fin 1 → Fin S10x1.rank)
  bcast_S10x1_S10x128_0_1 : S10x1.BroadcastsInDim S10x128 (![0, 1] : Fin 2 → Fin S10x128.rank)
  transposes_S10x128_S128x10_1_0 : S10x128.Transposes [1, 0] S128x10
  bcast_S_S10x10 : S_.BroadcastsInDim S10x10 (![] : Fin 0 → Fin S10x10.rank)
  reducesTo_S10x10_S_d0_1 : S10x10.ReducesTo [0, 1] S_
  shapeCasts_S4096_S4096x1 : S4096.ShapeCasts S4096x1
  inb_S256x3072_S256x3072_0_0 : ∀ a, (![0, 0] : Fin 2 → Nat) a + S256x3072.size a ≤ S256x3072.size a
  h_S256x3072 : 0 < S256x3072.numel
  reduces_S256x3072_S256 : S256x3072.Reduces [1] S256
  shapeCasts_S256_S256x1 : S256.ShapeCasts S256x1
  reduces_S256x1_S1 : S256x1.Reduces [0] S1
  shapeCasts_S1_S1x1 : S1.ShapeCasts S1x1
  shapeCasts_S1x1_S1x1x1 : S1x1.ShapeCasts S1x1x1
  broadcasts_S1x1x1_S1x8x128 : S1x1x1.Broadcasts S1x8x128
  inb_S1x8x128_S1x8x128_0_0_0 : ∀ a, (![0, 0, 0] : Fin 3 → Nat) a + S1x8x128.size a ≤ S1x8x128.size a
  h_S1x8x128 : 0 < S1x8x128.numel
  inb_S10x128_S10x128_0_0 : ∀ a, (![0, 0] : Fin 2 → Nat) a + S10x128.size a ≤ S10x128.size a
  h_S10x128 : 0 < S10x128.numel
  shapeCasts_S10x128_S10x128 : S10x128.ShapeCasts S10x128
  inb_S256x128_S256x128_0_0 : ∀ a, (![0, 0] : Fin 2 → Nat) a + S256x128.size a ≤ S256x128.size a
  h_S256x128 : 0 < S256x128.numel
  reduces_S256x128_S256 : S256x128.Reduces [1] S256
  reduces_S10x128_S10 : S10x128.Reduces [1] S10
  shapeCasts_S10_S10x1 : S10.ShapeCasts S10x1
  transposes_S10x1_p1_0_S1x10 : S10x1.Transposes [1, 0] S1x10
  transposes_S10x128_p1_0_S128x10 : S10x128.Transposes [1, 0] S128x10
  broadcasts_S256x1_S256x10 : S256x1.Broadcasts S256x10
  broadcasts_S1x10_S256x10 : S1x10.Broadcasts S256x10
  inb_S256x1_S256x1_0_0 : ∀ a, (![0, 0] : Fin 2 → Nat) a + S256x1.size a ≤ S256x1.size a
  h_S256x1 : 0 < S256x1.numel
  shapeCasts_S256x1_S256x1 : S256x1.ShapeCasts S256x1
  iota_S256x10_d1_w32 : S256x10.Iotas .tc 32 [1]
  reduces_S256x10_S256 : S256x10.Reduces [1] S256
  slices_S16x8x128_S16x1x1_0_0_0 : S16x8x128.Slices ![0, 0, 0] S16x1x1
  shapeCasts_S16x1x1_S16 : S16x1x1.ShapeCasts S16
  reducesTo_S16_S_d0 : S16.ReducesTo [0] S_
  dot_S10x128_S128x10_S10x10_1_0_0_1_n_n_wf : DotDims.WF S10x128 S128x10 S10x10 [1] [0] [0] [1] [] []
  dot_S256x128_S128x10_S256x10_1_0_0_1_n_n_wf : DotDims.WF S256x128 S128x10 S256x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x3072.size a ≤ S4096x3072.size a
  hwx0_0 : ∀ i : grid0.Coords, EltTy.bits .f32 = 32 ∨ (Rect.block (s := S4096x3072) S256x3072.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x3072.size a ≤ S4096x3072.size a
  hwx0_1 : ∀ i : grid0.Coords, EltTy.bits .f32 = 32 ∨ (Rect.block (s := S4096x3072) S256x3072.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S4096x128.size a
  hwx0_2 : ∀ i : grid0.Coords, EltTy.bits .f32 = 32 ∨ (Rect.block (s := S4096x128) S256x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S4096x128.size a
  hwx0_3 : ∀ i : grid0.Coords, EltTy.bits .f32 = 32 ∨ (Rect.block (s := S4096x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S10x128.size a ≤ S10x128.size a
  hwx0_4 : ∀ i : grid0.Coords, EltTy.bits .f32 = 32 ∨ (Rect.block (s := S10x128) S10x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1.size a ≤ S4096x1.size a
  hwx0_5 : ∀ i : grid0.Coords, EltTy.bits .i32 = 32 ∨ (Rect.block (s := S4096x1) S256x1.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x8x128.size a ≤ S16x8x128.size a
  hwx0_6 : ∀ i : grid0.Coords, EltTy.bits .f32 = 32 ∨ (Rect.block (s := S16x8x128) S1x8x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x8x128.size a ≤ S16x8x128.size a
  hwx0_7 : ∀ i : grid0.Coords, EltTy.bits .f32 = 32 ∨ (Rect.block (s := S16x8x128) S1x8x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x8x128.size a ≤ S16x8x128.size a
  hwx0_8 : ∀ i : grid0.Coords, EltTy.bits .f32 = 32 ∨ (Rect.block (s := S16x8x128) S1x8x128.size (cc0_transform_8 i) (hinb0_8 i)).WholeWords (EltTy.packing .f32)

variable [Facts₀]

def dot_S10x128_S128x10_S10x10_1_0_0_1_n_n : DotDims S10x128 S128x10 S10x10 where
  lhsContracting := [1]
  rhsContracting := [0]
  lhsNonContracting := [0]
  rhsNonContracting := [1]
  lhsBatch := []
  rhsBatch := []
  wf := dot_S10x128_S128x10_S10x10_1_0_0_1_n_n_wf
def dot_S256x128_S128x10_S256x10_1_0_0_1_n_n : DotDims S256x128 S128x10 S256x10 where
  lhsContracting := [1]
  rhsContracting := [0]
  lhsNonContracting := [0]
  rhsNonContracting := [1]
  lhsBatch := []
  rhsBatch := []
  wf := dot_S256x128_S128x10_S256x10_1_0_0_1_n_n_wf

abbrev win0_0 : Pipeline.Window sig grid0 :=
  Pipeline.Window.ofSpec (Memref.whole main_arg0) S256x3072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x3072.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S10x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S256x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v14_0) S1x8x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v14_1) S1x8x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v14_2) S1x8x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4096x3072 : Shape := ⟨2, ![4096, 3072]⟩
abbrev S4096 : Shape := ⟨1, ![4096]⟩
abbrev S4096x128 : Shape := ⟨2, ![4096, 128]⟩
abbrev S10x128 : Shape := ⟨2, ![10, 128]⟩
abbrev S_ : Shape := ⟨0, ![]⟩
abbrev S10 : Shape := ⟨1, ![10]⟩
abbrev S10x1 : Shape := ⟨2, ![10, 1]⟩
abbrev S4096x1x128 : Shape := ⟨3, ![4096, 1, 128]⟩
abbrev S1x10x128 : Shape := ⟨3, ![1, 10, 128]⟩
abbrev S4096x10x128 : Shape := ⟨3, ![4096, 10, 128]⟩
abbrev S4096x10 : Shape := ⟨2, ![4096, 10]⟩
abbrev S4096x1 : Shape := ⟨2, ![4096, 1]⟩
abbrev S4096x2 : Shape := ⟨2, ![4096, 2]⟩
abbrev S1x10 : Shape := ⟨2, ![1, 10]⟩
abbrev S128x10 : Shape := ⟨2, ![128, 10]⟩
abbrev S10x10 : Shape := ⟨2, ![10, 10]⟩

abbrev nBuf : Space → Nat
  | .hbm => 106
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S4096x3072, .f32⟩
  | .hbm, ⟨2, _⟩ => ⟨S4096, .i32⟩
  | .hbm, ⟨3, _⟩ => ⟨S4096x128, .f32⟩
  | .hbm, ⟨4, _⟩ => ⟨S4096x128, .f32⟩
  | .hbm, ⟨5, _⟩ => ⟨S10x128, .f32⟩
  | .hbm, ⟨6, _⟩ => ⟨S10x128, .f32⟩
  | .hbm, ⟨7, _⟩ => ⟨S_, .f32⟩
  | .hbm, ⟨8, _⟩ => ⟨S10, .f32⟩
  | .hbm, ⟨9, _⟩ => ⟨S10x1, .f32⟩
  | .hbm, ⟨10, _⟩ => ⟨S10x1, .f32⟩
  | .hbm, ⟨11, _⟩ => ⟨S10x128, .f32⟩
  | .hbm, ⟨12, _⟩ => ⟨S10x128, .f32⟩
  | .hbm, ⟨13, _⟩ => ⟨S4096x3072, .f32⟩
  | .hbm, ⟨14, _⟩ => ⟨S4096x3072, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096x1x128, .f32⟩
  | .hbm, ⟨20, _⟩ => ⟨S1x10x128, .f32⟩
  | .hbm, ⟨21, _⟩ => ⟨S4096x10x128, .f32⟩
  | .hbm, ⟨22, _⟩ => ⟨S4096x10x128, .f32⟩
  | .hbm, ⟨23, _⟩ => ⟨S4096x10x128, .f32⟩
  | .hbm, ⟨24, _⟩ => ⟨S4096x10x128, .f32⟩
  | .hbm, ⟨25, _⟩ => ⟨S_, .f32⟩
  | .hbm, ⟨26, _⟩ => ⟨S4096x10, .f32⟩
  | .hbm, ⟨27, _⟩ => ⟨S4096x10, .f32⟩
  | .hbm, ⟨28, _⟩ => ⟨S4096, .i32⟩
  | .hbm, ⟨29, _⟩ => ⟨S_, .i32⟩
  | .hbm, ⟨30, _⟩ => ⟨S4096, .i32⟩
  | .hbm, ⟨31, _⟩ => ⟨S4096, .i1⟩
  | .hbm, ⟨32, _⟩ => ⟨S_, .i32⟩
  | .hbm, ⟨33, _⟩ => ⟨S4096, .i32⟩
  | .hbm, ⟨34, _⟩ => ⟨S4096, .i32⟩
  | .hbm, ⟨35, _⟩ => ⟨S4096, .i32⟩
  | .hbm, ⟨36, _⟩ => ⟨S_, .i32⟩
  | .hbm, ⟨37, _⟩ => ⟨S4096, .i32⟩
  | .hbm, ⟨38, _⟩ => ⟨S4096, .i1⟩
  | .hbm, ⟨39, _⟩ => ⟨S_, .i32⟩
  | .hbm, ⟨40, _⟩ => ⟨S4096, .i32⟩
  | .hbm, ⟨41, _⟩ => ⟨S4096, .i32⟩
  | .hbm, ⟨42, _⟩ => ⟨S4096, .i32⟩
  | .hbm, ⟨43, _⟩ => ⟨S4096x1, .i32⟩
  | .hbm, ⟨44, _⟩ => ⟨S4096x1, .i32⟩
  | .hbm, ⟨45, _⟩ => ⟨S4096x2, .i32⟩
  | .hbm, ⟨46, _⟩ => ⟨S4096, .f32⟩
  | .hbm, ⟨47, _⟩ => ⟨S4096x1, .i32⟩
  | .hbm, ⟨48, _⟩ => ⟨S1x10, .i32⟩
  | .hbm, ⟨49, _⟩ => ⟨S4096x10, .i32⟩
  | .hbm, ⟨50, _⟩ => ⟨S4096x10, .i32⟩
  | .hbm, ⟨51, _⟩ => ⟨S4096x10, .i1⟩
  | .hbm, ⟨52, _⟩ => ⟨S_, .f32⟩
  | .hbm, ⟨53, _⟩ => ⟨S_, .f32⟩
  | .hbm, ⟨54, _⟩ => ⟨S4096x10, .f32⟩
  | .hbm, ⟨55, _⟩ => ⟨S4096x10, .f32⟩
  | .hbm, ⟨56, _⟩ => ⟨S_, .f32⟩
  | .hbm, ⟨57, _⟩ => ⟨S4096, .f32⟩
  | .hbm, ⟨58, _⟩ => ⟨S_, .f32⟩
  | .hbm, ⟨59, _⟩ => ⟨S4096, .f32⟩
  | .hbm, ⟨60, _⟩ => ⟨S4096, .f32⟩
  | .hbm, ⟨61, _⟩ => ⟨S4096, .f32⟩
  | .hbm, ⟨62, _⟩ => ⟨S_, .f32⟩
  | .hbm, ⟨63, _⟩ => ⟨S4096, .f32⟩
  | .hbm, ⟨64, _⟩ => ⟨S4096, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S4096x128, .f32⟩
  | .hbm, ⟨70, _⟩ => ⟨S_, .f32⟩
  | .hbm, ⟨71, _⟩ => ⟨S4096, .f32⟩
  | .hbm, ⟨72, _⟩ => ⟨S4096, .f32⟩
  | .hbm, ⟨73, _⟩ => ⟨S_, .f32⟩
  | .hbm, ⟨74, _⟩ => ⟨S4096, .f32⟩
  | .hbm, ⟨75, _⟩ => ⟨S4096, .f32⟩
  | .hbm, ⟨76, _⟩ => ⟨S_, .f32⟩
  | .hbm, ⟨77, _⟩ => ⟨S4096, .f32⟩
  | .hbm, ⟨78, _⟩ => ⟨S4096, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S128x10, .f32⟩
  | .hbm, ⟨84, _⟩ => ⟨S10x10, .f32⟩
  | .hbm, ⟨85, _⟩ => ⟨S10x10, .i32⟩
  | .hbm, ⟨86, _⟩ => ⟨S10x10, .i32⟩
  | .hbm, ⟨87, _⟩ => ⟨S_, .i32⟩
  | .hbm, ⟨88, _⟩ => ⟨S10x10, .i32⟩
  | .hbm, ⟨89, _⟩ => ⟨S10x10, .i32⟩
  | .hbm, ⟨90, _⟩ => ⟨S10x10, .i1⟩
  | .hbm, ⟨91, _⟩ => ⟨S10x10, .f32⟩
  | .hbm, ⟨92, _⟩ => ⟨S10x10, .f32⟩
  | .hbm, ⟨93, _⟩ => ⟨S10x10, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_call0_v2 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_v30 : Ref sig .tc := ⟨.hbm, 51, rfl⟩
abbrev main_cst_5 : Ref sig .tc := ⟨.hbm, 52, rfl⟩
abbrev main_call2_v0 : Ref sig .tc := ⟨.hbm, 53, rfl⟩
abbrev main_call2_v1 : Ref sig .tc := ⟨.hbm, 54, rfl⟩
abbrev main_v31 : Ref sig .tc := ⟨.hbm, 55, rfl⟩
abbrev main_cst_6 : Ref sig .tc := ⟨.hbm, 56, rfl⟩
abbrev main_v32 : Ref sig .tc := ⟨.hbm, 57, rfl⟩
abbrev main_cst_7 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_8 : Ref sig .tc := ⟨.hbm, 62, rfl⟩
abbrev main_v36 : Ref sig .tc := ⟨.hbm, 63, rfl⟩
abbrev main_v37 : Ref sig .tc := ⟨.hbm, 64, rfl⟩
abbrev main_cst_9 : Ref sig .tc := ⟨.hbm, 65, rfl⟩
abbrev main_v38 : Ref sig .tc := ⟨.hbm, 66, rfl⟩
abbrev main_cst_10 : Ref sig .tc := ⟨.hbm, 67, rfl⟩
abbrev main_v39 : Ref sig .tc := ⟨.hbm, 68, rfl⟩
abbrev main_call3_v0 : Ref sig .tc := ⟨.hbm, 69, rfl⟩
abbrev main_call3_cst : Ref sig .tc := ⟨.hbm, 70, rfl⟩
abbrev main_call3_v1 : Ref sig .tc := ⟨.hbm, 71, rfl⟩
abbrev main_v40 : Ref sig .tc := ⟨.hbm, 72, rfl⟩
abbrev main_cst_11 : Ref sig .tc := ⟨.hbm, 73, rfl⟩
abbrev main_v41 : Ref sig .tc := ⟨.hbm, 74, rfl⟩
abbrev main_v42 : Ref sig .tc := ⟨.hbm, 75, rfl⟩
abbrev main_cst_12 : Ref sig .tc := ⟨.hbm, 76, rfl⟩
abbrev main_v43 : Ref sig .tc := ⟨.hbm, 77, rfl⟩
abbrev main_v44 : Ref sig .tc := ⟨.hbm, 78, rfl⟩
abbrev main_cst_13 : Ref sig .tc := ⟨.hbm, 79, rfl⟩
abbrev main_v45 : Ref sig .tc := ⟨.hbm, 80, rfl⟩
abbrev main_cst_14 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_c_15 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_call4_v0 : Ref sig .tc := ⟨.hbm, 93, rfl⟩
abbrev main_call4_cst : Ref sig .tc := ⟨.hbm, 94, rfl⟩
abbrev main_call4_v1 : Ref sig .tc := ⟨.hbm, 95, rfl⟩
abbrev main_v56 : Ref sig .tc := ⟨.hbm, 96, rfl⟩
abbrev main_cst_16 : Ref sig .tc := ⟨.hbm, 97, rfl⟩
abbrev main_v57 : Ref sig .tc := ⟨.hbm, 98, rfl⟩
abbrev main_v58 : Ref sig .tc := ⟨.hbm, 99, rfl⟩
abbrev main_cst_17 : Ref sig .tc := ⟨.hbm, 100, rfl⟩
abbrev main_v59 : Ref sig .tc := ⟨.hbm, 101, rfl⟩
abbrev main_v60 : Ref sig .tc := ⟨.hbm, 102, rfl⟩
abbrev main_cst_18 : Ref sig .tc := ⟨.hbm, 103, rfl⟩
abbrev main_v61 : Ref sig .tc := ⟨.hbm, 104, rfl⟩
abbrev main_v62 : Ref sig .tc := ⟨.hbm, 105, rfl⟩

abbrev nD : Nat := 1
abbrev τ : Topo := Topo.v7x

variable {F : FTy → Type} [FloatOps F]

class Facts₀ : Prop where
  reducesTo_S10x128_S10_d1 : S10x128.ReducesTo [1] S10
  h_S_ : 0 < S_.numel
  bcast_S10_S10x1_0 : S10.BroadcastsInDim S10x1 (![0] : Fin 1 → Fin S10x1.rank)
  bcast_S10x1_S10x128_0_1 : S10x1.BroadcastsInDim S10x128 (![0, 1] : Fin 2 → Fin S10x128.rank)
  reducesTo_S4096x3072_S_d0_1 : S4096x3072.ReducesTo [0, 1] S_
  bcast_S4096x128_S4096x1x128_0_2 : S4096x128.BroadcastsInDim S4096x1x128 (![0, 2] : Fin 2 → Fin S4096x1x128.rank)
  bcast_S10x128_S1x10x128_1_2 : S10x128.BroadcastsInDim S1x10x128 (![1, 2] : Fin 2 → Fin S1x10x128.rank)
  bcast_S4096x1x128_S4096x10x128_0_1_2 : S4096x1x128.BroadcastsInDim S4096x10x128 (![0, 1, 2] : Fin 3 → Fin S4096x10x128.rank)
  bcast_S1x10x128_S4096x10x128_0_1_2 : S1x10x128.BroadcastsInDim S4096x10x128 (![0, 1, 2] : Fin 3 → Fin S4096x10x128.rank)
  reducesTo_S4096x10x128_S4096x10_d2 : S4096x10x128.ReducesTo [2] S4096x10
  bcast_S_S4096 : S_.BroadcastsInDim S4096 (![] : Fin 0 → Fin S4096.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  bcast_S4096x1_S4096x10_0_1 : S4096x1.BroadcastsInDim S4096x10 (![0, 1] : Fin 2 → Fin S4096x10.rank)
  bcast_S1x10_S4096x10_0_1 : S1x10.BroadcastsInDim S4096x10 (![0, 1] : Fin 2 → Fin S4096x10.rank)
  bcast_S_S4096x10 : S_.BroadcastsInDim S4096x10 (![] : Fin 0 → Fin S4096x10.rank)
  reducesTo_S4096x10_S4096_d1 : S4096x10.ReducesTo [1] S4096
  reducesTo_S4096_S_d0 : S4096.ReducesTo [0] S_
  reducesTo_S4096x128_S4096_d1 : S4096x128.ReducesTo [1] S4096
  transposes_S10x128_S128x10_1_0 : S10x128.Transposes [1, 0] S128x10
  bcast_S_S10x10 : S_.BroadcastsInDim S10x10 (![] : Fin 0 → Fin S10x10.rank)
  reducesTo_S10x10_S_d0_1 : S10x10.ReducesTo [0, 1] S_
  gather_S4096x10_S4096x2_S4096_n_01_n_n_01_1_11_wf : GatherDims.WF S4096x10 S4096x2 S4096 [] [0, 1] [] [0, 1] [] 1 ![1, 1]
  dot_S10x128_S128x10_S10x10_1_0_0_1_n_n_wf : DotDims.WF S10x128 S128x10 S10x10 [1] [0] [0] [1] [] []

variable [Facts₀]

def gather_S4096x10_S4096x2_S4096_n_01_n_n_01_1_11 : GatherDims S4096x10 S4096x2 S4096 where
  offsetDims := []
  collapsedSliceDims := [0, 1]
  operandBatchingDims := []
  startIndicesBatchingDims := []
  startIndexMap := [0, 1]
  indexVectorDim := 1
  sliceSizes := ![1, 1]
  wf := gather_S4096x10_S4096x2_S4096_n_01_n_n_01_1_11_wf
def dot_S10x128_S128x10_S10x10_1_0_0_1_n_n : DotDims S10x128 S128x10 S10x10 where
  lhsContracting := [1]
  rhsContracting := [0]
  lhsNonContracting := [0]
  rhsNonContracting := [1]
  lhsBatch := []
  rhsBatch := []
  wf := dot_S10x128_S128x10_S10x10_1_0_0_1_n_n_wf

class Facts : Prop extends Facts₀ where

variable [Facts]
-- ==== Proof.Spec.lean ====
/-
  The mathematics of the loss, stated once over the extended reals and used by both programs' value lemmas.

  Inputs: x, x_hat [4096, 3072]; z_in, z_out [4096, 128]; a table of ten centres [10, 128]; one class word per row.
  The result is  mse / (4096·3072) + 1·(tc / 4096) + 1·(out / 4096) + 1·orth  where
    mse  = Σ_b Σ_c (x[b,c] − x_hat[b,c])²,
    out  = Σ_b max(1 − √(Σ_k z_out[b,k]²), 0),
    tc   = Σ_b max(pos_b + 0.1 − neg_b, 0), pos_b the distance of row b to its own centre (spelt as the sum over the
           ten classes of the distance where the class is the row's, zero elsewhere), neg_b the least distance to another
           centre (the minimum over the ten classes of the distance, +∞ put at the row's own class),
  and the distance of a row z to centre c_j is read two ways: expanded, √max(‖z‖² + ‖c_j‖² − 2 z·c_j, 0), and direct,
  √Σ_k (z_k − c_jk)². On real entries the two agree, since ‖z‖² + ‖c‖² − 2 z·c = ‖z − c‖² ≥ 0.
  A batch of 4096 rows is cut into 16 tiles of 256 rows: row r of tile t is row 256 t + r, and a sum over the batch is
  the sum over the tiles of the sums over each tile's rows.
-/
import Idealize.ShloMosaic.PureOps.Ideal
import Idealize.ShloMosaic.PureOps.Ideal.Laws
import Idealize.ShloMosaic.Lib.ValueIdx

noncomputable section

namespace Cert.Loss

open Idealize.ShloMosaic Idealize.ShloMosaic.ValueIdx

/-- A rank-two array read by its two coordinates. -/
def at2 {a b : Nat} (A : (⟨2, ![a, b]⟩ : Shape).Idx → EReal) (p : Fin a) (q : Fin b) : EReal := A (ix2 p q)
/-- A rank-one array of words read by its coordinate. -/
def at1 {n : Nat} (T : (⟨1, ![n]⟩ : Shape).Idx → BitVec 32) (p : Fin n) : BitVec 32 := T (ix1 p)

/-- Row `r` of tile `t`: row `256 t + r` of the batch. -/
def row (t : Fin 16) (r : Fin 256) : Fin 4096 := ⟨256 * t.val + r.val, by omega⟩

/-- The float words the programs spell, as extended reals. -/
abbrev zero : EReal := Ideal.ofBits .f32 0x00000000#32
abbrev one : EReal := Ideal.ofBits .f32 0x3F800000#32
abbrev two : EReal := Ideal.ofBits .f32 0x40000000#32
abbrev tenth : EReal := Ideal.ofBits .f32 0x3DCCCCCD#32
abbrev inf : EReal := Ideal.ofBits .f32 0x7F800000#32
abbrev nMse : EReal := Ideal.ofBits .f32 0x4B400000#32
abbrev nRows : EReal := Ideal.ofBits .f32 0x45800000#32

/-! ## Reconstruction error -/

/-- The squared difference at entry (b, c). -/
def sq (x xh : Fin 4096 → Fin 3072 → EReal) (b : Fin 4096) (c : Fin 3072) : EReal :=
  (x b c - xh b c) * (x b c - xh b c)
/-- One tile's sum of squared differences. -/
def mseTile (x xh : Fin 4096 → Fin 3072 → EReal) (t : Fin 16) : EReal := ∑ r : Fin 256, ∑ c : Fin 3072, sq x xh (row t r) c
/-- The whole batch's. -/
def mseAll (x xh : Fin 4096 → Fin 3072 → EReal) : EReal := ∑ b : Fin 4096, ∑ c : Fin 3072, sq x xh b c

/-! ## Outlier term -/

/-- A row's hinge on its norm: max(1 − ‖z‖, 0). -/
def outOf (z : Fin 128 → EReal) : EReal := max (one - Ideal.sqrt (∑ k : Fin 128, z k * z k)) zero
def outTile (zo : Fin 4096 → Fin 128 → EReal) (t : Fin 16) : EReal := ∑ r : Fin 256, outOf (zo (row t r))
def outAll (zo : Fin 4096 → Fin 128 → EReal) : EReal := ∑ b : Fin 4096, outOf (zo b)

/-! ## Triplet-centre term -/

/-- The distance from row `z` to centre `j`, expanded: √max(‖z‖² + ‖c_j‖² − 2 z·c_j, 0). -/
def distK (z : Fin 128 → EReal) (c : Fin 10 → Fin 128 → EReal) (j : Fin 10) : EReal :=
  Ideal.sqrt (max ((∑ k : Fin 128, z k * z k) + (∑ k : Fin 128, c j k * c j k) - two * (∑ k : Fin 128, z k * c j k)) zero)
/-- The same distance, direct: √Σ_k (z_k − c_jk)². -/
def distR (z : Fin 128 → EReal) (c : Fin 10 → Fin 128 → EReal) (j : Fin 10) : EReal :=
  Ideal.sqrt (∑ k : Fin 128, (z k - c j k) * (z k - c j k))

/-- A row's hinge from its ten distances `d` and its class word `w`: max(pos + 0.1 − neg, 0). -/
def tcOf (d : Fin 10 → EReal) (w : BitVec 32) : EReal :=
  max ((∑ j : Fin 10, if BitVec.ofNat 32 j.val = w then d j else zero) + tenth
      - (Finset.univ : Finset (Fin 10)).fold min inf (fun j => if BitVec.ofNat 32 j.val = w then inf else d j)) zero

def tcTileK (zi : Fin 4096 → Fin 128 → EReal) (c : Fin 10 → Fin 128 → EReal) (tg : Fin 4096 → BitVec 32) (t : Fin 16) : EReal :=
  ∑ r : Fin 256, tcOf (distK (zi (row t r)) c) (tg (row t r))
def tcAllR (zi : Fin 4096 → Fin 128 → EReal) (c : Fin 10 → Fin 128 → EReal) (tg : Fin 4096 → BitVec 32) : EReal :=
  ∑ b : Fin 4096, tcOf (distR (zi b) c) (tg b)

/-! ## The total -/

/-- The four terms put together as both programs do, left to right. -/
def total (mse tc out orth : EReal) : EReal :=
  ((Ideal.div mse nMse + one * Ideal.div tc nRows) + one * Ideal.div out nRows) + one * orth

end Cert.Loss

end
-- ==== Proof.Algebra.lean ====
/-
  The laws that join the two readings of the loss: a sum over the batch is the sum over the tiles of the tiles' sums;
  on real entries the expanded distance is the direct one; the printed float words as numbers; and, when the
  orthogonality term is +∞, the total is +∞ whatever the three sums (each of which is a sum of non-negative terms).
-/
import proofs.«421998_j16509854286417_3_alg».proof.Proof.Spec

noncomputable section

namespace Cert.Loss

open Idealize.ShloMosaic Idealize.ShloMosaic.ValueIdx

/-! ## The float words as numbers

Each word is read by its sign, exponent and fraction fields: 0x3F800000 is 2^23 · 2^(127−150) = 1, 0x40000000 is
2^23 · 2^(128−150) = 2, 0x4B400000 is (2^23 + 2^22) · 2^(150−150) = 12582912, 0x45800000 is 2^23 · 2^(139−150) = 4096,
the all-ones exponent with a zero fraction is +∞, and the zero word is 0. -/

theorem zero_eq : zero = 0 := by
  simp [Ideal.ofBits, Ideal.ieee]
theorem one_eq : one = 1 := by
  simp [Ideal.ofBits, Ideal.ieee, -EReal.coe_mul]; norm_num
theorem two_eq : two = 2 := by
  simp [Ideal.ofBits, Ideal.ieee, -EReal.coe_mul]; norm_num; norm_cast
theorem inf_eq : inf = ⊤ := by
  simp [Ideal.ofBits, Ideal.ieee]
theorem nMse_eq : nMse = ((12582912 : ℝ) : EReal) := by
  simp [Ideal.ofBits, Ideal.ieee, -EReal.coe_mul]
theorem nRows_eq : nRows = ((4096 : ℝ) : EReal) := by
  simp [Ideal.ofBits, Ideal.ieee, -EReal.coe_mul]; norm_num

/-! ## Tiles -/

/-- A sum over the batch, tile by tile: the pair (t, r) ↦ 256 t + r is a bijection of
    Fin 16 × Fin 256 with Fin 4096, and a sum over pairs is the iterated sum. -/
theorem sum_rows (f : Fin 4096 → EReal) : ∑ t : Fin 16, ∑ r : Fin 256, f (row t r) = ∑ b : Fin 4096, f b := by
  have h := Fintype.sum_equiv (finProdFinEquiv (m := 16) (n := 256))
    (fun p : Fin 16 × Fin 256 => f (row p.1 p.2)) (fun b : Fin (16 * 256) => f b) (fun p => by
      congr 1
      apply Fin.ext
      simp [row, finProdFinEquiv]
      omega)
  rw [Fintype.sum_prod_type] at h
  exact h

/-! ## The two distances -/

/-- A finite sum of reals, read in the extended reals, is the sum of the readings. -/
private theorem coe_sum {ι : Type} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- On real entries ‖z‖² + ‖c‖² − 2 z·c = ‖z − c‖² ≥ 0, so the two distances agree. -/
theorem distK_eq_distR (z : Fin 128 → EReal) (c : Fin 10 → Fin 128 → EReal)
    (hz : ∀ k, ∃ r : ℝ, z k = r) (hc : ∀ j k, ∃ r : ℝ, c j k = r) (j : Fin 10) : distK z c j = distR z c j := by
  choose zr hzr using hz
  choose cr hcr using hc
  -- each of the four sums is the reading of a real sum
  have hA : ∑ k : Fin 128, z k * z k = ((∑ k : Fin 128, zr k * zr k : ℝ) : EReal) := by
    rw [← coe_sum]; exact Finset.sum_congr rfl (fun k _ => by rw [hzr k, EReal.coe_mul])
  have hB : ∑ k : Fin 128, c j k * c j k = ((∑ k : Fin 128, cr j k * cr j k : ℝ) : EReal) := by
    rw [← coe_sum]; exact Finset.sum_congr rfl (fun k _ => by rw [hcr j k, EReal.coe_mul])
  have hC : ∑ k : Fin 128, z k * c j k = ((∑ k : Fin 128, zr k * cr j k : ℝ) : EReal) := by
    rw [← coe_sum]; exact Finset.sum_congr rfl (fun k _ => by rw [hzr k, hcr j k, EReal.coe_mul])
  have hD : ∑ k : Fin 128, (z k - c j k) * (z k - c j k)
      = ((∑ k : Fin 128, (zr k - cr j k) * (zr k - cr j k) : ℝ) : EReal) := by
    rw [← coe_sum]
    exact Finset.sum_congr rfl (fun k _ => by rw [hzr k, hcr j k, ← EReal.coe_sub, EReal.coe_mul])
  -- over the reals: Σ z² + Σ c² − 2 Σ z c = Σ (z − c)², term by term
  have hreal : (∑ k : Fin 128, zr k * zr k) + (∑ k : Fin 128, cr j k * cr j k) - 2 * (∑ k : Fin 128, zr k * cr j k)
      = ∑ k : Fin 128, (zr k - cr j k) * (zr k - cr j k) := by
    rw [Finset.mul_sum, ← Finset.sum_add_distrib, ← Finset.sum_sub_distrib]
    exact Finset.sum_congr rfl (fun k _ => by ring)
  -- a sum of squares is non-negative, so the maximum with zero changes nothing
  have hnn : (0 : ℝ) ≤ ∑ k : Fin 128, (zr k - cr j k) * (zr k - cr j k) :=
    Finset.sum_nonneg (fun k _ => mul_self_nonneg _)
  have h2 : (2 : EReal) = ((2 : ℝ) : EReal) := by norm_cast
  unfold distK distR
  rw [hA, hB, hC, hD, two_eq, zero_eq, h2, ← EReal.coe_mul, ← EReal.coe_add, ← EReal.coe_sub, hreal]
  congr 1
  exact max_eq_left (by exact_mod_cast hnn)

/-! ## Non-negative terms -/

/-- A square is non-negative on every extended real: (±∞)·(±∞) = +∞, and a real square is ≥ 0. -/
private theorem mul_self_nonneg_ereal (x : EReal) : 0 ≤ x * x := by
  induction x using EReal.rec with
  | bot => simp
  | coe r => rw [← EReal.coe_mul]; exact_mod_cast mul_self_nonneg r
  | top => simp

theorem sq_nonneg (x xh : Fin 4096 → Fin 3072 → EReal) (b : Fin 4096) (c : Fin 3072) : 0 ≤ sq x xh b c :=
  mul_self_nonneg_ereal _
/-- A maximum with zero is non-negative. -/
theorem outOf_nonneg (z : Fin 128 → EReal) : 0 ≤ outOf z := by
  unfold outOf; rw [zero_eq]; exact le_max_right _ _
theorem tcOf_nonneg (d : Fin 10 → EReal) (w : BitVec 32) : 0 ≤ tcOf d w := by
  unfold tcOf; rw [zero_eq]; exact le_max_right _ _

/-! ## The total at +∞ -/

/-- A non-negative extended real over a positive real is non-negative: it is the product with the
    positive reciprocal. -/
private theorem div_nonneg_of_pos {x : EReal} (hx : 0 ≤ x) {y : ℝ} (hy : 0 < y) : 0 ≤ Ideal.div x (y : EReal) := by
  rw [Ideal.div_coe (ne_of_gt hy)]
  exact EReal.mul_nonneg hx (by exact_mod_cast (one_div_pos.mpr hy).le)

/-- With the orthogonality term at +∞ and the three sums non-negative the total is +∞: 1 · ⊤ = ⊤, and
    a + ⊤ = ⊤ for every a ≠ ⊥, which a non-negative a is. -/
theorem total_top (mse tc out : EReal) (hm : 0 ≤ mse) (ht : 0 ≤ tc) (ho : 0 ≤ out) : total mse tc out ⊤ = ⊤ := by
  unfold total
  rw [one_eq, nMse_eq, nRows_eq, one_mul, one_mul, one_mul]
  have h1 : 0 ≤ Ideal.div mse ((12582912 : ℝ) : EReal) := div_nonneg_of_pos hm (by norm_num)
  have h2 : 0 ≤ Ideal.div tc ((4096 : ℝ) : EReal) := div_nonneg_of_pos ht (by norm_num)
  have h3 : 0 ≤ Ideal.div out ((4096 : ℝ) : EReal) := div_nonneg_of_pos ho (by norm_num)
  have h : 0 ≤ Ideal.div mse ((12582912 : ℝ) : EReal) + Ideal.div tc ((4096 : ℝ) : EReal)
      + Ideal.div out ((4096 : ℝ) : EReal) := add_nonneg (add_nonneg h1 h2) h3
  exact EReal.add_top_of_ne_bot (ne_of_gt (lt_of_lt_of_le EReal.bot_lt_zero h))

end Cert.Loss

end
-- ==== Proof.Bridge.lean ====
/-
  The two readings of the loss are one number. The reconstruction and outlier sums are the batch's sums regrouped tile
  by tile. The triplet-centre sums differ only in how a distance is spelt, and on real rows and real centres the expanded
  distance is the direct one. If the centres are not all real — a centre row of zeros, whose normalisation is 0 / 0 —
  the orthogonality term is +∞, and then both totals are +∞, the other three terms being sums of non-negative numbers.
-/
import proofs.«421998_j16509854286417_3_alg».proof.Proof.Spec
import proofs.«421998_j16509854286417_3_alg».proof.Proof.Algebra

noncomputable section

namespace Cert.Loss

open Idealize.ShloMosaic Idealize.ShloMosaic.ValueIdx

/-- The kernel's total, tile by tile over the expanded distances, is the reference's, over the batch and the direct ones. -/
theorem bridge (x xh : Fin 4096 → Fin 3072 → EReal) (zi zo : Fin 4096 → Fin 128 → EReal) (ctr : Fin 10 → Fin 128 → EReal)
    (tg : Fin 4096 → BitVec 32) (orth : EReal) (hz : ∀ b k, ∃ r : ℝ, zi b k = (r : EReal))
    (hc : (∀ j k, ∃ r : ℝ, ctr j k = (r : EReal)) ∨ orth = ⊤) :
    total (∑ t : Fin 16, mseTile x xh t) (∑ t : Fin 16, tcTileK zi ctr tg t) (∑ t : Fin 16, outTile zo t) orth
      = total (mseAll x xh) (tcAllR zi ctr tg) (outAll zo) orth := by
  -- the reconstruction and outlier sums: the batch's sums regrouped tile by tile
  have hm : ∑ t : Fin 16, mseTile x xh t = mseAll x xh := by
    unfold mseTile mseAll
    exact sum_rows (fun b => ∑ c : Fin 3072, sq x xh b c)
  have ho : ∑ t : Fin 16, outTile zo t = outAll zo := by
    unfold outTile outAll
    exact sum_rows (fun b => outOf (zo b))
  rw [hm, ho]
  rcases hc with hc | hc
  · -- real centres: row by row the expanded distances are the direct ones
    have ht : ∑ t : Fin 16, tcTileK zi ctr tg t = tcAllR zi ctr tg := by
      unfold tcTileK tcAllR
      rw [sum_rows (fun b => tcOf (distK (zi b) ctr) (tg b))]
      refine Finset.sum_congr rfl (fun b _ => ?_)
      have e : distK (zi b) ctr = distR (zi b) ctr := funext fun j => distK_eq_distR (zi b) ctr (hz b) hc j
      rw [e]
    rw [ht]
  · -- orthogonality term +∞: both totals are +∞, the other three terms being sums of non-negative numbers
    subst hc
    have hmse : 0 ≤ mseAll x xh := by
      unfold mseAll
      exact Finset.sum_nonneg fun b _ => Finset.sum_nonneg fun c _ => sq_nonneg x xh b c
    have hout : 0 ≤ outAll zo := by
      unfold outAll
      exact Finset.sum_nonneg fun b _ => outOf_nonneg _
    have htK : 0 ≤ ∑ t : Fin 16, tcTileK zi ctr tg t := by
      unfold tcTileK
      exact Finset.sum_nonneg fun t _ => Finset.sum_nonneg fun r _ => tcOf_nonneg _ _
    have htR : 0 ≤ tcAllR zi ctr tg := by
      unfold tcAllR
      exact Finset.sum_nonneg fun b _ => tcOf_nonneg _ _
    rw [total_top _ _ _ hmse htK hout, total_top _ _ _ hmse htR hout]

end Cert.Loss

end
-- ==== Proof.PreFacts.lean ====
/-
  What the precondition says of the inputs that the proof uses: the latent rows z_in and the centre table are real
  (|v| < +∞ entry by entry), and every class word is one of 0, …, 9 (0 ≤ w and w < 10 as signed words).
-/
import proofs.«421998_j16509854286417_3_alg».proof.Pre_finite_inputs
import proofs.«421998_j16509854286417_3_alg».proof.Proof.Gen.Pre_finite_inputs
import Idealize.ShloMosaic.PureOps.Ideal
import Idealize.ShloMosaic.Lib.ReduceAll
import Idealize.ShloMosaic.Lib.ValueIdx
import Idealize.ShloMosaic.Lib.StableHlo.Predicate

noncomputable section

namespace Cert.PreFacts

open Idealize.ShloMosaic Idealize.ShloMosaic.ValueIdx Cert.Pre_finite_inputs

/-- One value: the bit of |v| < +∞ is set only when v is a real. The pattern 0x7F800000 denotes +∞; |v| is max v (−v),
    which is +∞ at both infinities, so the strict inequality rules out ⊥ and ⊤ and leaves a real. -/
theorem real_of_abs_lt_top (v : Ideal .f32)
    (h : FloatOps.cmpf .olt (FloatOps.hostAbsf v) (FloatOps.ofBits (F := Ideal) .f32 0x7F800000#32) = 1#1) :
    ∃ r : ℝ, v = (r : EReal) := by
  have htop : Ideal.ofBits .f32 0x7F800000#32 = ⊤ := by simp [Ideal.ofBits, Ideal.ieee]
  change Ideal.cmp .olt (max (v : EReal) (-(v : EReal))) (Ideal.ofBits .f32 0x7F800000#32) = 1#1 at h
  rw [htop] at h
  unfold Ideal.cmp at h
  simp only [StableHlo.Predicate.ofBool_eq_one_iff, decide_eq_true_eq] at h
  induction v using EReal.rec with
  | bot => simp at h
  | top => simp at h
  | coe r => exact ⟨r, rfl⟩

/-- The precondition, decoded. -/
theorem decode [Cert.Pre_finite_inputs.Facts] (x xh : FVec Ideal S4096x3072 .f32) (tg : IVec S4096 32)
    (zi zo : FVec Ideal S4096x128 .f32) (ca : FVec Ideal S10x128 .f32)
    (h : Cert.Pre_finite_inputs.fn (F := Ideal) x xh tg zi zo ca = fun _ => 1#1) :
    (∀ i, ∃ r : ℝ, zi i = (r : EReal)) ∧ (∀ i, ∃ r : ℝ, ca i = (r : EReal)) ∧ (∀ b : Fin 4096, (tg (ix1 b)).toNat < 10) := by
  -- a rank-0 shape has one index
  haveI : Subsingleton S_.Idx := ⟨fun a b => funext fun d => d.elim0⟩
  -- the predicate at its one index: a conjunction of seven one-bit words, each an "all" over one array
  have h0 := congrFun h ValueIdx.ix0
  dsimp only [fn, fn_part1] at h0
  simp only [andi, IntOp.andi_eq_one] at h0
  obtain ⟨⟨⟨⟨⟨⟨_, _⟩, hzi⟩, _⟩, hca⟩, hge⟩, hlt⟩ := h0
  -- an "all" that is 1 had a 1 at every index; for the float arrays that bit is |v| < +∞
  refine ⟨fun i => real_of_abs_lt_top (zi i) (Host.reduce_andi_all _ _ _ _ _ hzi i),
    fun i => real_of_abs_lt_top (ca i) (Host.reduce_andi_all _ _ _ _ _ hca i), fun b => ?_⟩
  -- the class word w at b: 0 ≤ w and w < 10 as signed words
  have hg : IntOp.cmpi .sge (tg (ix1 b)) 0#32 = 1#1 := Host.reduce_andi_all _ _ _ _ _ hge (ix1 b)
  have hl : IntOp.cmpi .slt (tg (ix1 b)) 10#32 = 1#1 := Host.reduce_andi_all _ _ _ _ _ hlt (ix1 b)
  simp only [IntOp.cmpi, StableHlo.Predicate.ofBool_eq_one_iff, BitVec.sle, BitVec.slt, decide_eq_true_eq] at hg hl
  have e0 : (0#32 : BitVec 32).toInt = 0 := by decide
  have e10 : (10#32 : BitVec 32).toInt = 10 := by decide
  rw [e0] at hg
  rw [e10] at hl
  -- a signed value in [0, 10) is the unsigned value
  have hc := BitVec.toInt_eq_toNat_cond (tg (ix1 b))
  have hb := (tg (ix1 b)).isLt
  omega

end Cert.PreFacts

end
-- ==== Proof.Centres.lean ====
/-
  The normalised centres c_j = a_j / ‖a_j‖ of a real table a. If every row of a has a non-zero entry, every norm is a
  positive real and every entry of c is real. If some row of a is all zeros its norm is 0, its quotient 0 / 0 reads as −∞
  on the extended reals, the Gram matrix's diagonal entry there is Σ_k (−∞)·(−∞) = +∞, and the orthogonality term — the
  root of a sum of squares one of which is +∞ — is +∞.
-/
import proofs.«421998_j16509854286417_3_alg».proof.Proof.Gen.ReferenceIdeal.Read
import proofs.«421998_j16509854286417_3_alg».proof.Proof.Spec
import Idealize.ShloMosaic.PureOps.Ideal.Laws
import Idealize.ShloMosaic.Lib.ValueIdx
import Idealize.ShloMosaic.Lib.IdealHost

noncomputable section

namespace Cert.ReferenceIdeal.Centres

open Cert.ReferenceIdeal Cert.ReferenceIdeal.Gen Idealize.ShloMosaic Idealize.ShloMosaic.ValueIdx

/-- The inclusion of the reals in the extended reals commutes with finite sums. -/
theorem coe_sum {ι : Type*} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- A square is non-negative on the whole extended line: (−∞)·(−∞) = (+∞)·(+∞) = +∞. -/
theorem mul_self_nonneg' (x : EReal) : 0 ≤ x * x := by
  induction x using EReal.rec with
  | bot => simp
  | coe r => exact_mod_cast mul_self_nonneg r
  | top => simp

/-- A finite sum of non-negative extended reals one of which is +∞ is +∞. -/
theorem sum_eq_top {ι : Type*} (s : Finset ι) (g : ι → EReal) (h0 : ∀ k ∈ s, 0 ≤ g k) (a : ι) (ha : a ∈ s)
    (hta : g a = ⊤) : ∑ k ∈ s, g k = ⊤ := by
  classical
  rw [← Finset.add_sum_erase s g ha, hta]
  refine EReal.top_add_of_ne_bot (ne_of_gt (lt_of_lt_of_le EReal.bot_lt_zero ?_))
  exact Finset.sum_nonneg fun k hk => h0 k (Finset.mem_of_mem_erase hk)

/-- The norm broadcast along a row: at an index of row a it is the root of that row's sum of squares (the sum starts
    from the constant 0). -/
theorem norm_apply (ca : (⟨S10x128, .f32⟩ : BufTy).Contents (Elt Ideal)) (i : S10x128.Idx) :
    Cert.ReferenceIdeal.Read.val_main_v1 (F := Ideal) ca i
      = Ideal.sqrt (∑ k : Fin 128, ca (ix2 (i 0) k) * ca (ix2 (i 0) k)) := by
  rw [Read.val_main_v1_apply, Read.val_main_v0_apply, Ideal.hostUnary_sqrt_def, Read.val_main_call0_v2_apply,
    Read.val_main_call0_v1_apply, Read.val_main_call0_cst_apply, Ideal.ofBits_def, Ideal.ofBits_zero_f32, zero_add]
  refine congrArg Ideal.sqrt (Finset.sum_congr rfl fun k _ => ?_)
  rw [Read.val_main_call0_v0_apply, Ideal.mulf_def]
  have e : Read.idx_main_call0_v1 (Read.idx_main_call0_v2 (Read.idx_main_v1 i)) k = ix2 (i 0) k :=
    funext fun a => match a with | ⟨0, _⟩ => rfl | ⟨1, _⟩ => rfl
  rw [e]
  rfl

/-- Real table, no zero row: the normalised centres are real. -/
theorem centres_real (ca : (⟨S10x128, .f32⟩ : BufTy).Contents (Elt Ideal)) (hca : ∀ i, ∃ r : ℝ, ca i = (r : EReal))
    (hrow : ∀ j : Fin 10, ∃ k : Fin 128, ca (ix2 j k) ≠ 0) (i : S10x128.Idx) :
    ∃ r : ℝ, Cert.ReferenceIdeal.Read.val_main_v2 (F := Ideal) ca i = (r : EReal) := by
  choose f hf using hca
  -- the row's sum of squares is a positive real
  have hS : ∑ k : Fin 128, ca (ix2 (i 0) k) * ca (ix2 (i 0) k)
      = ((∑ k : Fin 128, f (ix2 (i 0) k) * f (ix2 (i 0) k) : ℝ) : EReal) := by
    rw [← coe_sum]
    exact Finset.sum_congr rfl fun k _ => by rw [hf, EReal.coe_mul]
  have hpos : 0 < ∑ k : Fin 128, f (ix2 (i 0) k) * f (ix2 (i 0) k) := by
    obtain ⟨k0, hk0⟩ := hrow (i 0)
    have hne : f (ix2 (i 0) k0) ≠ 0 := fun h => hk0 (by rw [hf, h, EReal.coe_zero])
    refine lt_of_lt_of_le (mul_self_pos.2 hne) ?_
    exact Finset.single_le_sum (f := fun k => f (ix2 (i 0) k) * f (ix2 (i 0) k))
      (fun k _ => mul_self_nonneg _) (Finset.mem_univ k0)
  have hroot : Real.sqrt (∑ k : Fin 128, f (ix2 (i 0) k) * f (ix2 (i 0) k)) ≠ 0 :=
    ne_of_gt (Real.sqrt_pos.2 hpos)
  refine ⟨f i * (1 / Real.sqrt (∑ k : Fin 128, f (ix2 (i 0) k) * f (ix2 (i 0) k))), ?_⟩
  rw [Read.val_main_v2_apply, Ideal.hostDivf_def, norm_apply, hS, Ideal.sqrt_coe, if_neg (not_lt.2 hpos.le),
    Ideal.div_coe hroot, hf, EReal.coe_mul]

/-- On a zero row the norm is 0 and every quotient is 0 / 0, which reads −∞. -/
theorem centre_zero_row (ca : (⟨S10x128, .f32⟩ : BufTy).Contents (Elt Ideal)) (j : Fin 10)
    (hrow : ∀ k : Fin 128, ca (ix2 j k) = 0) (k : Fin 128) :
    Cert.ReferenceIdeal.Read.val_main_v2 (F := Ideal) ca (ix2 j k) = ⊥ := by
  have hS : ∑ k' : Fin 128, ca (ix2 ((ix2 j k : S10x128.Idx) 0) k') * ca (ix2 ((ix2 j k : S10x128.Idx) 0) k')
      = ((0 : ℝ) : EReal) := by
    rw [EReal.coe_zero]
    exact Finset.sum_eq_zero fun k' _ => by
      show ca (ix2 j k') * ca (ix2 j k') = 0
      rw [hrow, mul_zero]
  rw [Read.val_main_v2_apply, Ideal.hostDivf_def, norm_apply, hS, Ideal.sqrt_coe, if_neg (lt_irrefl _),
    Real.sqrt_zero, EReal.coe_zero, hrow, Ideal.div, if_pos rfl, if_neg (lt_irrefl _)]

/-- The identity matrix's entries are reals (an unsigned one-bit word read as a number). -/
theorem eye_real (i : S10x10.Idx) : ∃ r : ℝ, Cert.ReferenceIdeal.Read.val_main_v54 (F := Ideal) i = (r : EReal) :=
  ⟨_, rfl⟩

/-- Real table with a zero row: the orthogonality term is +∞. -/
theorem orth_top (ca : (⟨S10x128, .f32⟩ : BufTy).Contents (Elt Ideal)) (hca : ∀ i, ∃ r : ℝ, ca i = (r : EReal))
    (j : Fin 10) (hrow : ∀ k : Fin 128, ca (ix2 j k) = 0) :
    Cert.ReferenceIdeal.Read.val_main_v56 (F := Ideal) ca ix0 = ⊤ := by
  -- the Gram matrix's entry (j, j) is Σ_k c_jk · c_jk = Σ_k (−∞)·(−∞) = +∞
  have el : ∀ k : Fin 128, Read.lidx_main_v48 (ix2 j j) k = ix2 j k := fun k =>
    funext fun a => match a with | ⟨0, _⟩ => rfl | ⟨1, _⟩ => rfl
  have er : ∀ k : Fin 128, Read.idx_main_v47 (Read.ridx_main_v48 (ix2 j j) k) = ix2 j k := fun k =>
    funext fun a => match a with | ⟨0, _⟩ => rfl | ⟨1, _⟩ => rfl
  have hterm : ∀ k : Fin 128, Read.val_main_v2 (F := Ideal) ca (Read.lidx_main_v48 (ix2 j j) k)
      * Read.val_main_v47 (F := Ideal) ca (Read.ridx_main_v48 (ix2 j j) k) = ⊤ := fun k => by
    rw [Read.val_main_v47_apply, el, er, centre_zero_row ca j hrow k, EReal.bot_mul_bot]
  have hgram : Read.val_main_v48 (F := Ideal) ca (ix2 j j) = ⊤ := by
    rw [Read.val_main_v48_apply]
    exact sum_eq_top _ _ (fun k _ => by rw [hterm k]; exact le_top) ⟨0, by decide⟩ (Finset.mem_univ _) (hterm _)
  -- minus the identity's real entry it is still +∞, and so is its square
  have hd : Read.val_main_v55 (F := Ideal) ca (ix2 j j) = ⊤ := by
    obtain ⟨r, hr⟩ := eye_real (ix2 j j)
    rw [Read.val_main_v55_apply, Ideal.subf_def, hgram, hr, EReal.top_sub_coe]
  have hsq : Read.val_main_call4_v0 (F := Ideal) ca (ix2 j j) = ⊤ := by
    rw [Read.val_main_call4_v0_apply, Ideal.mulf_def, hd, EReal.top_mul_top]
  -- every square is non-negative, so the sum over the hundred entries is +∞, and so is its root
  have hsum : ∑ i : S10x10.Idx, Read.val_main_call4_v0 (F := Ideal) ca i = ⊤ :=
    sum_eq_top _ _ (fun i _ => by rw [Read.val_main_call4_v0_apply, Ideal.mulf_def]; exact mul_self_nonneg' _)
      (ix2 j j) (Finset.mem_univ _) hsq
  rw [Read.val_main_v56_apply, Ideal.hostUnary_sqrt_def, Read.val_main_call4_v1_apply, Read.val_main_call4_cst_apply,
    Ideal.ofBits_def, Ideal.ofBits_zero_f32, zero_add, hsum, Ideal.sqrt_top]

end Cert.ReferenceIdeal.Centres

end
-- ==== Proof.RefTc.lean ====
/-
  The reference's triplet-centre sum. Row b's ten distances are √Σ_k (z_in[b,k] − c[j,k])² to the normalised centres c;
  its own distance is taken from that table at the column its class word names (a word in 0..9 is not negative, so the
  wrap-around branch is not taken, and it is in range, so the index is the word itself), which is the sum over the ten
  columns of the distance where the column is the row's class and zero elsewhere; the least other distance is the
  minimum over the ten columns with +∞ at the row's class; the hinge max(own + 0.1 − other, 0) is summed over the batch.
-/
import proofs.«421998_j16509854286417_3_alg».proof.Proof.Gen.ReferenceIdeal.Read
import proofs.«421998_j16509854286417_3_alg».proof.Proof.Spec
import Idealize.ShloMosaic.PureOps.Ideal.Laws
import Idealize.ShloMosaic.Lib.ValueIdx
import Idealize.ShloMosaic.Lib.ValueIdxRank1
import Idealize.ShloMosaic.Lib.IdealHost
import Idealize.ShloMosaic.Lib.StableHlo.Predicate

noncomputable section

namespace Cert.ReferenceIdeal.RefTc

open Cert.ReferenceIdeal Cert.ReferenceIdeal.Gen Cert.ReferenceIdeal.Read Idealize.ShloMosaic Idealize.ShloMosaic.ValueIdx

/-- The distance table at (b, j): the direct distance from row b of z_in to centre j. -/
theorem dist_apply (zi : (⟨S4096x128, .f32⟩ : BufTy).Contents (Elt Ideal)) (ca : (⟨S10x128, .f32⟩ : BufTy).Contents (Elt Ideal))
    (b : Fin 4096) (j : Fin 10) :
    val_main_v14 (F := Ideal) zi ca (ix2 b j)
      = Cert.Loss.distR (Cert.Loss.at2 zi b) (Cert.Loss.at2 (val_main_v2 (F := Ideal) ca)) j := by
  rw [val_main_v14_apply, Ideal.hostUnary_sqrt_def, val_main_v13_apply, val_main_cst_1_apply, Ideal.ofBits_def,
    Ideal.ofBits_zero_f32, zero_add]
  unfold Cert.Loss.distR
  congr 1
  refine Finset.sum_congr rfl fun k _ => ?_
  rw [val_main_v12_apply, Ideal.mulf_def, val_main_v11_apply, Ideal.subf_def, val_main_v9_apply, val_main_v7_apply,
    val_main_v10_apply, val_main_v8_apply]
  have e1 : idx_main_v7 (idx_main_v9 (idx_main_v13 (ix2 b j) k)) = ix2 b k :=
    funext fun a => Fin.ext (by match a with | ⟨0, _⟩ => rfl | ⟨1, _⟩ => rfl)
  have e2 : idx_main_v8 (idx_main_v10 (idx_main_v13 (ix2 b j) k)) = ix2 j k :=
    funext fun a => Fin.ext (by match a with | ⟨0, _⟩ => rfl | ⟨1, _⟩ => rfl)
  rw [e1, e2]
  rfl

/-! ## The row's own distance: a point read of the table at (row number, class word) -/

/-- The start-index array's first column is the row number: the row counter is not negative, so the wrap-around
    branch is not taken. -/
theorem v28_col0 (tg : (⟨S4096, .i32⟩ : BufTy).Contents (Elt Ideal)) (b : Fin 4096) :
    val_main_v28 (F := Ideal) tg (ix2 b (0 : Fin 2)) = BitVec.ofNat 32 b.val := by
  unfold val_main_v28
  refine (concatenate_pair_apply_left (t := S4096x2) (s₁ := S4096x1) (s₂ := S4096x1) (1 : Fin 2) _ _
    concatenates_S4096x1_S4096x1_S4096x2_d1 (ix2 b (0 : Fin 2)) rfl (ix2 b (0 : Fin 1))
    (fun c => by match c with | ⟨0, _⟩ => rfl | ⟨1, _⟩ => rfl)).trans ?_
  rw [val_main_v26_apply, val_main_v20_apply, val_main_v17_apply, val_main_v15_apply, val_main_v16_apply, val_main_c_apply]
  have h0 : IntOp.cmpi .slt (BitVec.ofNat 32 ((idx_main_v26 (ix2 b (0 : Fin 1))) 0).val) 0#32 = 0#1 :=
    eq_zero_of_ne_one fun h => by
      have := (StableHlo.Predicate.slt_iff_toNat (by simp [BitVec.toNat_ofNat]; omega) (by decide)).mp h
      simp at this
  rw [h0, select_zero]

/-- Its second column is the class word: a word in 0..9 is not negative, so the wrap-around branch is not taken. -/
theorem v28_col1 (tg : (⟨S4096, .i32⟩ : BufTy).Contents (Elt Ideal)) (htg : ∀ b : Fin 4096, (tg (ix1 b)).toNat < 10)
    (b : Fin 4096) : val_main_v28 (F := Ideal) tg (ix2 b (1 : Fin 2)) = tg (ix1 b) := by
  unfold val_main_v28
  refine (concatenate_pair_apply_right (t := S4096x2) (s₁ := S4096x1) (s₂ := S4096x1) (1 : Fin 2) _ _
    concatenates_S4096x1_S4096x1_S4096x2_d1 (ix2 b (1 : Fin 2)) rfl rfl (ix2 b (0 : Fin 1))
    (fun c hc => by match c with | ⟨0, _⟩ => rfl | ⟨1, _⟩ => exact absurd rfl hc) rfl).trans ?_
  rw [val_main_v27_apply, val_main_v25_apply, val_main_v22_apply, val_main_v21_apply, val_main_c_3_apply]
  have e : idx_main_v27 (ix2 b (0 : Fin 1)) = ix1 b := funext fun a => Fin.ext (by match a with | ⟨0, _⟩ => rfl)
  rw [e]
  have h0 : IntOp.cmpi .slt (tg (ix1 b)) 0#32 = 0#1 :=
    eq_zero_of_ne_one fun h => by
      have := (StableHlo.Predicate.slt_iff_toNat (by have := htg b; omega) (by decide)).mp h
      simp at this
  rw [h0, select_zero]

local notation "gd" => gather_S4096x10_S4096x2_S4096_n_01_n_n_01_1_11

/-- The point gather read at row b: the table at the two start-index components of row b, each read signed and
    clamped into its axis. -/
theorem gather_read {α : Type} (x : S4096x10.Idx → α) (idx : IVec S4096x2 32) (b : Fin 4096) :
    Host.gather gd x idx (ix1 b)
      = x (ix2 ⟨min (idx (ix2 b 0)).toInt.toNat (4096 - 1), by omega⟩ ⟨min (idx (ix2 b 1)).toInt.toNat (10 - 1), by omega⟩) := by
  unfold Host.gather
  congr 1
  funext a
  refine Fin.ext ?_
  match a with
  | ⟨0, _⟩ =>
    show GatherDims.start gd (ix1 b) idx 0 + GatherDims.batchCoord gd (ix1 b) 0 + GatherDims.offCoord gd (ix1 b) 0 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (0 : Fin 2) ∈ (gd).startIndexMap by decide)]
    have hsi : GatherDims.siIdx gd (ix1 b) ⟨List.idxOf (0 : Fin 2) (gd).startIndexMap,
        List.idxOf_lt_length_iff.2 (by decide)⟩ = ix2 b 0 := by
      funext c; refine Fin.ext ?_
      match c with
      | ⟨0, _⟩ => rfl
      | ⟨1, _⟩ => rfl
    rw [hsi]
    rfl
  | ⟨1, _⟩ =>
    show GatherDims.start gd (ix1 b) idx 1 + GatherDims.batchCoord gd (ix1 b) 1 + GatherDims.offCoord gd (ix1 b) 1 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (1 : Fin 2) ∈ (gd).startIndexMap by decide)]
    have hsi : GatherDims.siIdx gd (ix1 b) ⟨List.idxOf (1 : Fin 2) (gd).startIndexMap,
        List.idxOf_lt_length_iff.2 (by decide)⟩ = ix2 b 1 := by
      funext c; refine Fin.ext ?_
      match c with
      | ⟨0, _⟩ => rfl
      | ⟨1, _⟩ => rfl
    rw [hsi]
    rfl

/-- Row b's own distance is the table's entry at (b, its class word): both start-index components are in range, so the
    clamp leaves them. -/
theorem pos_apply (tg : (⟨S4096, .i32⟩ : BufTy).Contents (Elt Ideal)) (zi : (⟨S4096x128, .f32⟩ : BufTy).Contents (Elt Ideal))
    (ca : (⟨S10x128, .f32⟩ : BufTy).Contents (Elt Ideal)) (htg : ∀ b : Fin 4096, (tg (ix1 b)).toNat < 10) (b : Fin 4096) :
    val_main_v29 (F := Ideal) tg zi ca (ix1 b)
      = val_main_v14 (F := Ideal) zi ca (ix2 b ⟨(tg (ix1 b)).toNat, htg b⟩) := by
  unfold val_main_v29
  rw [gather_read]
  congr 1
  funext a
  match a with
  | ⟨0, _⟩ =>
    apply Fin.ext
    show min (val_main_v28 (F := Ideal) tg (ix2 b (0 : Fin 2))).toInt.toNat (4096 - 1) = b.val
    rw [v28_col0, StableHlo.Predicate.toInt_ofNat_small _ (by omega)]
    simp only [Int.toNat_natCast]
    omega
  | ⟨1, _⟩ =>
    apply Fin.ext
    show min (val_main_v28 (F := Ideal) tg (ix2 b (1 : Fin 2))).toInt.toNat (10 - 1) = (tg (ix1 b)).toNat
    rw [v28_col1 tg htg, StableHlo.Predicate.toInt_eq_toNat_of_lt (by have := htg b; omega)]
    simp only [Int.toNat_natCast]
    have := htg b
    omega

/-- An entry of ten at a word in 0..9 is the sum over the ten places of the entry where the place is the word and zero
    elsewhere. -/
theorem pos_sum (d : Fin 10 → EReal) (w : BitVec 32) (hw : w.toNat < 10) :
    d ⟨w.toNat, hw⟩ = ∑ j : Fin 10, if BitVec.ofNat 32 j.val = w then d j else Cert.Loss.zero := by
  rw [Finset.sum_eq_single (⟨w.toNat, hw⟩ : Fin 10)]
  · rw [if_pos]
    apply BitVec.eq_of_toNat_eq
    simp only [BitVec.toNat_ofNat]
    omega
  · intro j _ hj
    rw [if_neg]
    · exact Ideal.ofBits_zero_f32
    · intro h
      apply hj
      apply Fin.ext
      have := congrArg BitVec.toNat h
      simp only [BitVec.toNat_ofNat] at this
      have := j.isLt
      show j.val = w.toNat
      omega
  · intro h
    exact absurd (Finset.mem_univ _) h

/-! ## The least other distance -/

/-- The reduced index b with column k put back is (b, k). -/
theorem lift_col (h : S4096x10.Reduces [1] S4096) (b : Fin 4096) (k : Fin (S4096x10.size 1)) :
    h.lift (ix1 b) k = ix2 b (⟨k.val, k.isLt⟩ : Fin 10) := by
  funext c; apply Fin.ext
  fin_cases c <;> rfl

/-- The one-hot mask at (b, j) is the bit of "row b's class word is j". -/
theorem own_apply (tg : (⟨S4096, .i32⟩ : BufTy).Contents (Elt Ideal)) (b : Fin 4096) (j : Fin 10) :
    val_main_v30 (F := Ideal) tg (ix2 b j) = IntOp.cmpi .eq (tg (ix1 b)) (BitVec.ofNat 32 j.val) := by
  rw [val_main_v30_apply, val_main_call1_v2_apply, val_main_call1_v0_apply, val_main_call1_v3_apply, val_main_call1_v1_apply]
  have e : idx_main_call1_v0 (idx_main_call1_v2 (ix2 b j)) = ix1 b :=
    funext fun a => Fin.ext (by match a with | ⟨0, _⟩ => rfl)
  rw [e]

/-- The masked table at (b, j): +∞ at the row's own class, the distance elsewhere. -/
theorem masked_apply (tg : (⟨S4096, .i32⟩ : BufTy).Contents (Elt Ideal)) (zi : (⟨S4096x128, .f32⟩ : BufTy).Contents (Elt Ideal))
    (ca : (⟨S10x128, .f32⟩ : BufTy).Contents (Elt Ideal)) (b : Fin 4096) (j : Fin 10) :
    val_main_v31 (F := Ideal) tg zi ca (ix2 b j)
      = if BitVec.ofNat 32 j.val = tg (ix1 b) then Cert.Loss.inf
        else Cert.Loss.distR (Cert.Loss.at2 zi b) (Cert.Loss.at2 (val_main_v2 (F := Ideal) ca)) j := by
  rw [val_main_v31_apply, own_apply, dist_apply]
  by_cases hj : tg (ix1 b) = BitVec.ofNat 32 j.val
  · rw [StableHlo.Predicate.cmpi_eq_iff.mpr hj, select_one, if_pos hj.symm, val_main_call2_v1_apply, val_main_call2_v0_apply,
      val_main_cst_5_apply]
    rfl
  · rw [eq_zero_of_ne_one fun h => hj (StableHlo.Predicate.cmpi_eq_iff.mp h), select_zero, if_neg fun h => hj h.symm]

/-- The least other distance of row b: the minimum over the ten columns of the masked table, from +∞. -/
theorem neg_apply (tg : (⟨S4096, .i32⟩ : BufTy).Contents (Elt Ideal)) (zi : (⟨S4096x128, .f32⟩ : BufTy).Contents (Elt Ideal))
    (ca : (⟨S10x128, .f32⟩ : BufTy).Contents (Elt Ideal)) (b : Fin 4096) :
    val_main_v32 (F := Ideal) tg zi ca (ix1 b)
      = (Finset.univ : Finset (Fin 10)).fold min Cert.Loss.inf
          (fun j => if BitVec.ofNat 32 j.val = tg (ix1 b) then Cert.Loss.inf
            else Cert.Loss.distR (Cert.Loss.at2 zi b) (Cert.Loss.at2 (val_main_v2 (F := Ideal) ca)) j) := by
  unfold val_main_v32
  have h : S4096x10.Reduces [1] S4096 := by decide
  rw [Host.reduce_eq_fold_single FloatOps.minimumf _ _ reducesTo_S4096x10_S4096_d1 h h_S_]
  have hf : (val_main_v31 (F := Ideal) tg zi ca ∘ h.lift (ix1 b))
      = fun j : Fin 10 => if BitVec.ofNat 32 j.val = tg (ix1 b) then Cert.Loss.inf
          else Cert.Loss.distR (Cert.Loss.at2 zi b) (Cert.Loss.at2 (val_main_v2 (F := Ideal) ca)) j :=
    funext fun k => by
      show val_main_v31 (F := Ideal) tg zi ca (h.lift (ix1 b) k) = _
      rw [lift_col h b k, masked_apply]
      rfl
  rw [hf]
  rfl

/-! ## The row's hinge and the batch's sum -/

/-- Row b's hinge. -/
theorem row_apply (tg : (⟨S4096, .i32⟩ : BufTy).Contents (Elt Ideal)) (zi : (⟨S4096x128, .f32⟩ : BufTy).Contents (Elt Ideal))
    (ca : (⟨S10x128, .f32⟩ : BufTy).Contents (Elt Ideal)) (htg : ∀ b : Fin 4096, (tg (ix1 b)).toNat < 10) (b : Fin 4096) :
    val_main_v37 (F := Ideal) tg zi ca (ix1 b)
      = Cert.Loss.tcOf (Cert.Loss.distR (Cert.Loss.at2 zi b) (Cert.Loss.at2 (val_main_v2 (F := Ideal) ca))) (Cert.Loss.at1 tg b) := by
  rw [val_main_v37_apply, Ideal.maximumf_def, val_main_v35_apply, Ideal.subf_def, val_main_v34_apply, Ideal.addf_def,
    val_main_v33_apply, val_main_cst_7_apply, val_main_v36_apply, val_main_cst_8_apply, pos_apply tg zi ca htg, neg_apply,
    dist_apply,
    pos_sum (Cert.Loss.distR (Cert.Loss.at2 zi b) (Cert.Loss.at2 (val_main_v2 (F := Ideal) ca))) (tg (ix1 b)) (htg b)]
  rfl

/-- The reference's sum of the rows' hinges (before the division by the batch size), for class words in range. -/
theorem ref_tc (tg : (⟨S4096, .i32⟩ : BufTy).Contents (Elt Ideal)) (zi : (⟨S4096x128, .f32⟩ : BufTy).Contents (Elt Ideal))
    (ca : (⟨S10x128, .f32⟩ : BufTy).Contents (Elt Ideal)) (htg : ∀ b : Fin 4096, (tg (ix1 b)).toNat < 10) (i : S_.Idx) :
    Cert.ReferenceIdeal.Read.val_main_v38 (F := Ideal) tg zi ca i
      = Cert.Loss.tcAllR (Cert.Loss.at2 zi) (Cert.Loss.at2 (Cert.ReferenceIdeal.Read.val_main_v2 (F := Ideal) ca)) (Cert.Loss.at1 tg) := by
  rw [val_main_v38_apply, val_main_cst_9_apply, Ideal.ofBits_def, Ideal.ofBits_zero_f32, zero_add]
  unfold Cert.Loss.tcAllR
  refine (Equiv.sum_comp (idxEquiv1 (n := 4096)).symm _).symm.trans ?_
  refine Finset.sum_congr rfl fun b _ => ?_
  exact row_apply tg zi ca htg b

end Cert.ReferenceIdeal.RefTc

end
-- ==== Proof.RefValue.lean ====
/-
  The reference's result as the loss of its arguments: the mean squared error read as the double sum over rows and
  columns, the triplet-centre term over the DIRECT distances √Σ_k (z_k − c_jk)² to the normalised centres (the row's own
  distance taken by an index — its class word, which the precondition keeps in 0..9, so it is the masked sum over the
  ten classes — and the least other distance as a minimum with +∞ at the own class), the outlier term, and the
  orthogonality term, which is left as the reference spells it.
-/
import proofs.«421998_j16509854286417_3_alg».proof.Proof.Gen.ReferenceIdeal.Read
import proofs.«421998_j16509854286417_3_alg».proof.Proof.Spec
import proofs.«421998_j16509854286417_3_alg».proof.Proof.RefTc
import Idealize.ShloMosaic.PureOps.Ideal.Laws
import Idealize.ShloMosaic.Lib.ValueIdx
import Idealize.ShloMosaic.Lib.ValueIdxRank1
import Idealize.ShloMosaic.Lib.IdealHost

noncomputable section

namespace Cert.ReferenceIdeal.RefValue

open Cert.ReferenceIdeal Cert.ReferenceIdeal.Gen Idealize.ShloMosaic Idealize.ShloMosaic.ValueIdx

/-- The reference's sum of squared differences (before the division). -/
theorem ref_mse (x xh : (⟨S4096x3072, .f32⟩ : BufTy).Contents (Elt Ideal)) (i : S_.Idx) :
    Cert.ReferenceIdeal.Read.val_main_v5 (F := Ideal) x xh i = Cert.Loss.mseAll (Cert.Loss.at2 x) (Cert.Loss.at2 xh) := by
  -- the sum's initial value is the word of zero; the sum over the index set is the double sum over rows and columns
  rw [Read.val_main_v5_apply, Read.val_main_cst_apply, Ideal.ofBits_def, Ideal.ofBits_zero_f32, zero_add, sum_idx2]
  unfold Cert.Loss.mseAll Cert.Loss.sq Cert.Loss.at2
  refine Finset.sum_congr rfl fun b _ => Finset.sum_congr rfl fun c _ => ?_
  rw [Read.val_main_v4_apply, Read.val_main_v3_apply, Ideal.mulf_def, Ideal.subf_def]

/-- The reference's sum of the rows' outlier hinges (before the division). -/
theorem ref_out (zo : (⟨S4096x128, .f32⟩ : BufTy).Contents (Elt Ideal)) (i : S_.Idx) :
    Cert.ReferenceIdeal.Read.val_main_v45 (F := Ideal) zo i = Cert.Loss.outAll (Cert.Loss.at2 zo) := by
  -- the sum's initial value is the word of zero; the sum over the rank-one index set is the sum over the rows
  rw [Read.val_main_v45_apply, Read.val_main_cst_13_apply, Ideal.ofBits_def, Ideal.ofBits_zero_f32, zero_add,
    ← Equiv.sum_comp (idxEquiv1 (n := 4096)).symm]
  unfold Cert.Loss.outAll Cert.Loss.outOf Cert.Loss.at2
  refine Finset.sum_congr rfl fun b _ => ?_
  show Read.val_main_v44 (F := Ideal) zo (ix1 b) = _
  -- row b's sum of squares: 0 + Σ_k z[b,k]·z[b,k]
  have hrow : Read.val_main_call3_v1 (F := Ideal) zo (ix1 b) = ∑ k : Fin 128, zo (ix2 b k) * zo (ix2 b k) := by
    rw [Read.val_main_call3_v1_apply, Read.val_main_call3_cst_apply, Ideal.ofBits_def, Ideal.ofBits_zero_f32, zero_add]
    refine Finset.sum_congr rfl fun k _ => ?_
    have e : Read.idx_main_call3_v1 (ix1 b) k = ix2 b k :=
      funext fun a => Fin.ext (by match a with | ⟨0, _⟩ => rfl | ⟨1, _⟩ => rfl)
    rw [Read.val_main_call3_v0_apply, Ideal.mulf_def, e]
  -- row b's hinge: max(1 − √(that sum), 0)
  rw [Read.val_main_v44_apply, Read.val_main_v43_apply, Read.val_main_cst_12_apply, Read.val_main_v42_apply,
    Read.val_main_v41_apply, Read.val_main_cst_11_apply, Read.val_main_v40_apply, hrow]
  rfl

/-- The reference's result, for class words in range. -/
theorem ref_value (x xh : (⟨S4096x3072, .f32⟩ : BufTy).Contents (Elt Ideal)) (tg : (⟨S4096, .i32⟩ : BufTy).Contents (Elt Ideal))
    (zi zo : (⟨S4096x128, .f32⟩ : BufTy).Contents (Elt Ideal)) (ca : (⟨S10x128, .f32⟩ : BufTy).Contents (Elt Ideal))
    (htg : ∀ b : Fin 4096, (tg (ix1 b)).toNat < 10) :
    Cert.ReferenceIdeal.Read.val_main_v62 (F := Ideal) x xh tg zi zo ca
      = fun _ => Cert.Loss.total (Cert.Loss.mseAll (Cert.Loss.at2 x) (Cert.Loss.at2 xh))
          (Cert.Loss.tcAllR (Cert.Loss.at2 zi) (Cert.Loss.at2 (Cert.ReferenceIdeal.Read.val_main_v2 (F := Ideal) ca)) (Cert.Loss.at1 tg))
          (Cert.Loss.outAll (Cert.Loss.at2 zo))
          (Cert.ReferenceIdeal.Read.val_main_v56 (F := Ideal) ca ix0) := by
  funext i
  -- the scalar shape has one index
  obtain rfl : i = ix0 := eq_ix0 i
  -- the four terms, each a stage divided by its count and weighted by one, added left to right
  rw [Read.val_main_v62_apply, Read.val_main_v61_apply, Read.val_main_cst_18_apply, Read.val_main_v60_apply,
    Read.val_main_v59_apply, Read.val_main_cst_17_apply, Read.val_main_v58_apply, Read.val_main_v57_apply,
    Read.val_main_cst_16_apply, Read.val_main_v46_apply, Read.val_main_cst_14_apply, Read.val_main_v39_apply,
    Read.val_main_cst_10_apply, Read.val_main_v6_apply, Read.val_main_cst_0_apply,
    ref_mse, RefTc.ref_tc tg zi ca htg, ref_out]
  rfl

end Cert.ReferenceIdeal.RefValue

end
-- ==== Proof.KernelHost.lean ====
/-
  The kernel program's host lines around its one region, at the ideal instance. Before the region the centre table is
  normalised row by row (the same operations, in the same order, as the reference's: the two terms are one), the
  orthogonality term is computed from the normalised centres (again the reference's own operations), and the class
  words are re-laid as a column. After the region each of the three result arrays [16, 8, 128] is cut to its entries
  (t, 0, 0), the sixteen entries are added up, and the three sums and the orthogonality term are put together as
  mse / (4096·3072) + 1·(tc / 4096) + 1·(out / 4096) + 1·orth.
-/
import proofs.«421998_j16509854286417_3_alg».proof.Proof.Gen.KernelIdeal.Frame
import proofs.«421998_j16509854286417_3_alg».proof.Proof.Gen.ReferenceIdeal.Read
import proofs.«421998_j16509854286417_3_alg».proof.Proof.Spec
import Idealize.ShloMosaic.PureOps.Ideal.Laws
import Idealize.ShloMosaic.Lib.Pipeline.Value
import Idealize.ShloMosaic.Lib.ValueIdx
import Idealize.ShloMosaic.Lib.ValueLayout
import Idealize.ShloMosaic.Lib.IdealHost
import Idealize.ShloMosaic.Lib.StableHlo.Run
import Idealize.ShloMosaic.Lib.ValueIdxRank1

noncomputable section

namespace Cert.KernelIdeal.Host

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-- The normalised centres as the region finds them are the reference's normalised centres of the same table. -/
theorem V_centres (c : Dev nD) :
    (Gen.V m c main_v2 : S10x128.Idx → EReal)
      = Cert.ReferenceIdeal.Read.val_main_v2 (F := Ideal) (m ((c.tc : Thread nD τ).loc main_arg5)) := by
  -- the lines before the region, composed at the buffer of the normalised centres: the quotient of the table by the
  -- broadcast row norms, the norms the square roots of the row sums of the squares
  dsimp only [Gen.V, Gen.V0]
  simp only [Gen.hostOps0, Gen.hostOps0_1, Gen.hostOps0_2, Gen.hostOps0_3, List.flatten_cons, List.flatten_nil,
    List.append_nil, List.cons_append, List.nil_append]
  after_results
  -- the reference's stages spell the same term, operation for operation
  rfl

/-- The class words as the region finds them: a column, row b holding word b. -/
theorem V_target (c : Dev nD) (b : Fin 4096) :
    (Gen.V m c main_v13 : S4096x1.Idx → BitVec 32) (ix2 b 0)
      = (m ((c.tc : Thread nD τ).loc main_arg2) : S4096.Idx → BitVec 32) (ix1 b) := by
  dsimp only [Gen.V, Gen.V0]
  simp only [Gen.hostOps0, Gen.hostOps0_1, Gen.hostOps0_2, Gen.hostOps0_3, List.flatten_cons, List.flatten_nil,
    List.append_nil, List.cons_append, List.nil_append]
  after_results
  -- the one line that writes this buffer re-lays the words [4096] as [4096, 1]: entry (b, 0) is at row-major
  -- position b · 1 + 0 = b, the position of entry b of the operand
  show shapeCast S4096x1 (m ((c.tc : Thread nD τ).loc main_arg2) : S4096.Idx → BitVec 32) shapeCasts_S4096_S4096x1 (ix2 b 0) = _
  exact shapeCast_apply _ _ _ (ix1 b) (by
    rw [Shape.rowMajor_val_one, Shape.rowMajor_val_two]
    show b.val = b.val * 1 + 0
    omega)

/-- The entries (t, 0, 0) of a result array, cut out and re-laid as a vector: entry t of the vector. -/
private theorem slice_read (A : S16x8x128.Idx → EReal) (t : Fin 16) :
    shapeCast S16 (extractStridedSlice S16x1x1 ![0, 0, 0] A slices_S16x8x128_S16x1x1_0_0_0) shapeCasts_S16x1x1_S16 (ix1 t)
      = A (ix3 t (0 : Fin 8) (0 : Fin 128)) := by
  rw [shapeCast_apply _ _ _ (ix3 t (0 : Fin 1) (0 : Fin 1)) (by
    rw [Shape.rowMajor_val_three, Shape.rowMajor_val_one]
    show (t.val * 1 + 0) * 1 + 0 = t.val
    omega)]
  exact extractStridedSlice_apply _ _ _ _ _ (fun a => by
    match a with
    | ⟨0, _⟩ => exact (Nat.zero_add _).symm
    | ⟨1, _⟩ => rfl
    | ⟨2, _⟩ => rfl)

/-- The host's sum of that vector from zero is the sum over the sixteen tiles. -/
private theorem tile_sum (A : S16x8x128.Idx → EReal) (j : S_.Idx) :
    (Host.reduceAdd (F := Ideal) (fun i => shapeCast S16 (extractStridedSlice S16x1x1 ![0, 0, 0] A slices_S16x8x128_S16x1x1_0_0_0) shapeCasts_S16x1x1_S16 i)
        (constant S_ .f32 0x00000000#32) reducesTo_S16_S_d0 h_S_ : S_.Idx → EReal) j
      = ∑ t : Fin 16, A (ix3 t (0 : Fin 8) (0 : Fin 128)) := by
  rw [hostReduceAdd_apply, Ideal.hostReduceAdd_total reducesTo_S16_S_d0 (fun b => b.elim0), constant_apply,
    Ideal.ofBits_zero_f32, zero_add, ← Equiv.sum_comp (idxEquiv1 (n := 16)).symm]
  exact Finset.sum_congr rfl (fun t _ => slice_read A t)

/-- The orthogonality term as the lines before the region leave it is the reference's, of the same table. -/
private theorem V_orth (c : Dev nD) :
    (Gen.V0 m c (Proc.devRef .tc main_v12) : S_.Idx → EReal)
      = Cert.ReferenceIdeal.Read.val_main_v56 (F := Ideal) (m ((c.tc : Thread nD τ).loc main_arg5)) := by
  dsimp only [Gen.V0]
  simp only [Gen.hostOps0, Gen.hostOps0_1, Gen.hostOps0_2, Gen.hostOps0_3, List.flatten_cons, List.flatten_nil,
    List.append_nil, List.cons_append, List.nil_append]
  after_results_simp
  rfl

/-- The program's result from the three result arrays the region leaves. -/
theorem tail_value (c : Dev nD) (A6 A7 A8 : S16x8x128.Idx → EReal)
    (h6 : ((Gen.dats m 0 c).arrAt 6 cfg0.N : S16x8x128.Idx → EReal) = A6)
    (h7 : ((Gen.dats m 0 c).arrAt 7 cfg0.N : S16x8x128.Idx → EReal) = A7)
    (h8 : ((Gen.dats m 0 c).arrAt 8 cfg0.N : S16x8x128.Idx → EReal) = A8) :
    (Pipeline.afterTail₀ cfgs (Gen.dats m) 0 (Gen.V0 m) [Gen.hostOps1] c main_v32 : S_.Idx → EReal)
      = fun _ => Cert.Loss.total (∑ t : Fin 16, A6 (ix3 t (0 : Fin 8) (0 : Fin 128))) (∑ t : Fin 16, A7 (ix3 t (0 : Fin 8) (0 : Fin 128)))
          (∑ t : Fin 16, A8 (ix3 t (0 : Fin 8) (0 : Fin 128)))
          (Cert.ReferenceIdeal.Read.val_main_v56 (F := Ideal) (m ((c.tc : Thread nD τ).loc main_arg5)) ix0) := by
  -- the lines after the region, composed at the result buffer over what the region leaves
  unfold Pipeline.afterTail₀
  simp only [Gen.hostOps1, List.flatten_cons, List.flatten_nil, List.append_nil]
  after_results_simp
  -- the three result arrays are the region's; the orthogonality term is no array of the region, so it is still what
  -- the lines before the region left
  have e6 : Pipeline.withArrays (cfgs 0).spec c (V0 m c) (fun w => (dats m 0 c).arrAt w (cfgs 0).N) (Proc.devRef .tc main_v14_0) = A6 :=
    (Pipeline.withArrays_arr spec0 launch0.win.arr_inj c _ _ 6).trans h6
  have e7 : Pipeline.withArrays (cfgs 0).spec c (V0 m c) (fun w => (dats m 0 c).arrAt w (cfgs 0).N) (Proc.devRef .tc main_v14_1) = A7 :=
    (Pipeline.withArrays_arr spec0 launch0.win.arr_inj c _ _ 7).trans h7
  have e8 : Pipeline.withArrays (cfgs 0).spec c (V0 m c) (fun w => (dats m 0 c).arrAt w (cfgs 0).N) (Proc.devRef .tc main_v14_2) = A8 :=
    (Pipeline.withArrays_arr spec0 launch0.win.arr_inj c _ _ 8).trans h8
  have e12 : Pipeline.withArrays (cfgs 0).spec c (V0 m c) (fun w => (dats m 0 c).arrAt w (cfgs 0).N) (Proc.devRef .tc main_v12)
      = Cert.ReferenceIdeal.Read.val_main_v56 (F := Ideal) (m ((c.tc : Thread nD τ).loc main_arg5)) :=
    (Pipeline.withArrays_of_ne _ c (V0 m c) _ main_v12 (by exact (by decide : ∀ w, Pipeline.arrRef spec0 w ≠ main_v12))).trans (V_orth m c)
  rw [e6, e7, e8, e12]
  -- at the one index of a scalar: quotients, products and sums entry by entry, each host sum the sum over the tiles
  funext j
  rw [addf_apply, addf_apply, addf_apply, mulf_apply, mulf_apply, mulf_apply, hostDivf_apply, hostDivf_apply, hostDivf_apply]
  obtain rfl : j = ix0 := eq_ix0 j
  unfold Cert.Loss.total
  rw [← tile_sum A6 ix0, ← tile_sum A7 ix0, ← tile_sum A8 ix0]
  rfl

end Cert.KernelIdeal.Host

end
-- ==== Proof.KernelPayload.lean ====
/-
  What the kernel body stores, at the ideal instance, read at an index: each of the three output blocks is filled with
  ONE number, a sum over the tile's 256 rows. The first holds the tile's sum of squared differences; the second the
  tile's sum of the rows' triplet-centre hinges, over the EXPANDED distances ‖z‖² + ‖c_j‖² − 2 z·c_j (the product z·c_j
  from the matrix unit, onto a zero accumulator) and the class mask "column j is the row's class word"; the third the
  tile's sum of the rows' outlier hinges.
-/
import proofs.«421998_j16509854286417_3_alg».proof.Proof.Gen.KernelIdeal.Skeleton
import proofs.«421998_j16509854286417_3_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Cert.KernelIdeal Cert.KernelIdeal.Gen Idealize.ShloMosaic Idealize.ShloMosaic.ValueIdx

/-! ## Layout steps and one-axis sums read by coordinates -/

section Layout
variable {α : Type}

/-- A one-element vector viewed as [1,1], then as [1,1,1], then spread over a [1,8,128] block reads its one element at
    every index of the block. -/
theorem spread_apply (v : S1.Idx → α) (h1 : S1.ShapeCasts S1x1) (h2 : S1x1.ShapeCasts S1x1x1)
    (h3 : S1x1x1.Broadcasts S1x8x128) (j : S1x8x128.Idx) :
    broadcastTo S1x8x128 (shapeCast S1x1x1 (shapeCast S1x1 v h1) h2) h3 j = v (ix1 0) := by
  refine (broadcastTo_apply _ h3 j (ix3 0 0 0) fun a => ?_).trans ?_
  · match a with
    | ⟨0, _⟩ => rfl
    | ⟨1, _⟩ => rfl
    | ⟨2, _⟩ => rfl
  refine (shapeCast_apply _ h2 (ix3 0 0 0) (ix2 0 0) rfl).trans ?_
  exact shapeCast_apply _ h1 (ix2 0 0) (ix1 0) rfl

/-- A length-n vector viewed as a column [n,1] reads, at (r, c), the vector at r. -/
theorem column_apply {n : ℕ} (v : (⟨1, ![n]⟩ : Shape).Idx → α) (h : (⟨1, ![n]⟩ : Shape).ShapeCasts ⟨2, ![n, 1]⟩)
    (r : Fin n) (c : Fin 1) : shapeCast ⟨2, ![n, 1]⟩ v h (ix2 r c) = v (ix1 r) :=
  shapeCast_apply v h _ _ (by
    have hc : c.val = 0 := by omega
    rw [Shape.rowMajor_val_two, Shape.rowMajor_val_one]
    show r.val = r.val * 1 + c.val
    rw [hc, Nat.mul_one, Nat.add_zero])

end Layout

/-- The sum along the lanes of an [m,n] array, at row r: the sum over the row's n entries. -/
theorem laneSum_apply {m n : ℕ} (w : FVec Ideal ⟨2, ![m, n]⟩ .f32) (acc : BitVec 32)
    (h : (⟨2, ![m, n]⟩ : Shape).Reduces [1] ⟨1, ![m]⟩) (hφ : FKind.Formats .f32) (hacc : acc = FKind.add.neutral .f32 hφ)
    (r : Fin m) :
    multiReduction .add [1] ⟨1, ![m]⟩ w acc h hφ hacc (ix1 r) = ∑ c : Fin n, w (ix2 r c) := by
  rw [Ideal.multiReduction_add_single]
  refine Finset.sum_congr rfl fun c _ => congrArg w (funext fun a => Fin.ext ?_)
  match a with
  | ⟨0, _⟩ => rfl
  | ⟨1, _⟩ => rfl

/-- The sum down the rows of an [m,1] column, at its one index: the sum over the m rows. -/
theorem rowSum_apply {m : ℕ} (w : FVec Ideal ⟨2, ![m, 1]⟩ .f32) (acc : BitVec 32)
    (h : (⟨2, ![m, 1]⟩ : Shape).Reduces [0] ⟨1, ![1]⟩) (hφ : FKind.Formats .f32) (hacc : acc = FKind.add.neutral .f32 hφ) :
    multiReduction .add [0] ⟨1, ![1]⟩ w acc h hφ hacc (ix1 0) = ∑ r : Fin m, w (ix2 r 0) := by
  rw [Ideal.multiReduction_add_single]
  refine Finset.sum_congr rfl fun r _ => congrArg w (funext fun a => Fin.ext ?_)
  match a with
  | ⟨0, _⟩ => rfl
  | ⟨1, _⟩ => rfl

/-- The reconstruction block: every entry is Σ_r Σ_c (x[r,c] − x̂[r,c])² over the tile's rows. -/
theorem pay3_apply (v0 v1 : Vec Ideal S256x3072 .f32) (j : S1x8x128.Idx) :
    k0_pay3 (F := Ideal) v0 v1 j
      = ∑ r : Fin 256, ∑ cc : Fin 3072, (v0 (ix2 r cc) - v1 (ix2 r cc)) * (v0 (ix2 r cc) - v1 (ix2 r cc)) := by
  unfold k0_pay3
  refine (spread_apply _ _ _ _ j).trans ?_
  refine (rowSum_apply _ _ _ _ _).trans ?_
  refine Finset.sum_congr rfl fun r _ => ?_
  refine (column_apply _ _ r 0).trans ?_
  exact laneSum_apply _ _ _ _ _ r

/-- The outlier block: every entry is Σ_r max(1 − ‖z_out[r]‖, 0). -/
theorem pay2_apply (v55 : Vec Ideal S256x128 .f32) (j : S1x8x128.Idx) :
    k0_pay2 (F := Ideal) v55 j = ∑ r : Fin 256, Cert.Loss.outOf (fun k => v55 (ix2 r k)) := by
  unfold k0_pay2
  refine (spread_apply _ _ _ _ j).trans ?_
  refine (rowSum_apply _ _ _ _ _).trans ?_
  refine Finset.sum_congr rfl fun r _ => ?_
  unfold Cert.Loss.outOf
  show max (Ideal.ofBits .f32 0x3F800000#32 - Ideal.sqrt (shapeCast S256x1 _ _ (ix2 r 0))) (Ideal.ofBits .f32 0x00000000#32) = _
  rw [column_apply]
  refine congrArg (fun t => max (Ideal.ofBits .f32 0x3F800000#32 - Ideal.sqrt t) (Ideal.ofBits .f32 0x00000000#32)) ?_
  exact laneSum_apply _ _ _ _ _ r

/-! ## The class mask and the row minimum -/

/-- A select on the one-bit word of "x = y" is the `if` on that equation. -/
theorem select_cmpi_eq {α : Type} {w : ℕ} (x y : BitVec w) (a b : α) :
    Scalar.select (IntOp.cmpi .eq x y) a b = if x = y then a else b := by
  show (if BitVec.ofBool (x == y) = 1 then a else b) = _
  by_cases h : x = y
  · have e : (x == y) = true := beq_iff_eq.2 h
    rw [e, if_pos h]
    exact if_pos (by decide)
  · have e : (x == y) = false := beq_eq_false_iff_ne.2 h
    rw [e, if_neg h]
    exact if_neg (by decide)

/-- The minimum along the lanes of an [m,n] array, at row r: the fold of `min` from the accumulator's value over the
    row's n entries. -/
theorem laneMin_apply {m n : ℕ} (w : FVec Ideal ⟨2, ![m, n]⟩ .f32) (acc : BitVec 32)
    (h : (⟨2, ![m, n]⟩ : Shape).Reduces [1] ⟨1, ![m]⟩) (hφ : FKind.Formats .f32) (hacc : acc = FKind.minimumf.neutral .f32 hφ)
    (r : Fin m) :
    multiReduction .minimumf [1] ⟨1, ![m]⟩ w acc h hφ hacc (ix1 r)
      = (Finset.univ : Finset (Fin n)).fold min (Ideal.ofBits .f32 acc) (fun c => w (ix2 r c)) := by
  rw [multiReduction_minimumf_eq_fold]
  refine (h.fold_filter_drop_single _ _ w (ix1 r)).trans ?_
  show (Finset.univ : Finset (Fin n)).fold min (Ideal.ofBits .f32 acc) (w ∘ h.lift (ix1 r)) = _
  refine congrArg (fun f => (Finset.univ : Finset (Fin n)).fold min (Ideal.ofBits .f32 acc) f)
    (funext fun c => congrArg w (funext fun a => Fin.ext ?_))
  match a with
  | ⟨0, _⟩ => rfl
  | ⟨1, _⟩ => rfl

/-- The class mask at (r, c): the one-bit word of "the word of c is row r's class word". -/
theorem pay5_apply (v32 : Vec Ideal S256x1 .i32) (r : Fin 256) (c : Fin 10) :
    k0_pay5 (F := Ideal) v32 (ix2 r c) = IntOp.cmpi .eq (BitVec.ofNat 32 c.val) (v32 (ix2 r 0)) := by
  unfold k0_pay5
  show IntOp.cmpi .eq (iota .tc S256x10 32 [1] _ (ix2 r c)) (broadcastTo S256x10 (shapeCast S256x1 v32 _) _ (ix2 r c)) = _
  rw [iota_single_apply, shapeCast_self]
  refine congrArg (IntOp.cmpi .eq _) ?_
  refine broadcastTo_apply _ _ (ix2 r c) (ix2 r 0) fun a => ?_
  match a with
  | ⟨0, _⟩ => rfl
  | ⟨1, _⟩ => rfl

/-! ## The expanded distance table -/

section Spread
variable {α : Type}

/-- A column [a,1] spread over [a,b] reads, at (p, c), the column at p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p 0) := by
  refine broadcastTo_apply v h (ix2 p c) (ix2 p 0) fun ax => ?_
  match ax with
  | ⟨0, _⟩ =>
    show p.val = if a = 1 then 0 else p.val
    split
    · have := p.isLt; omega
    · rfl
  | ⟨1, _⟩ => rfl

end Spread

/-- The rows' squared norms, kept as a column and spread over the b columns: at (r, c) the sum of row r's squares. -/
theorem rowNorm_apply {m n b : ℕ} (w : FVec Ideal ⟨2, ![m, n]⟩ .f32) (acc : BitVec 32)
    (h : (⟨2, ![m, n]⟩ : Shape).Reduces [1] ⟨1, ![m]⟩) (hφ : FKind.Formats .f32) (hacc : acc = FKind.add.neutral .f32 hφ)
    (h2 : (⟨1, ![m]⟩ : Shape).ShapeCasts ⟨2, ![m, 1]⟩) (h3 : (⟨2, ![m, 1]⟩ : Shape).Broadcasts ⟨2, ![m, b]⟩)
    (r : Fin m) (c : Fin b) :
    broadcastTo ⟨2, ![m, b]⟩ (shapeCast ⟨2, ![m, 1]⟩ (multiReduction .add [1] ⟨1, ![m]⟩ w acc h hφ hacc) h2) h3 (ix2 r c)
      = ∑ k : Fin n, w (ix2 r k) := by
  rw [broadcastTo_a1_ab_apply, column_apply]
  exact laneSum_apply w acc h hφ hacc r

/-- The centres' squared norms, kept as a column, transposed to a row and spread over the a rows: at (r, c) the sum of
    centre c's squares. -/
theorem colNorm_apply {a n b : ℕ} (w : FVec Ideal ⟨2, ![b, n]⟩ .f32) (acc : BitVec 32)
    (h : (⟨2, ![b, n]⟩ : Shape).Reduces [1] ⟨1, ![b]⟩) (hφ : FKind.Formats .f32) (hacc : acc = FKind.add.neutral .f32 hφ)
    (h2 : (⟨1, ![b]⟩ : Shape).ShapeCasts ⟨2, ![b, 1]⟩) (h3 : (⟨2, ![b, 1]⟩ : Shape).Transposes [1, 0] ⟨2, ![1, b]⟩)
    (h4 : (⟨2, ![1, b]⟩ : Shape).Broadcasts ⟨2, ![a, b]⟩) (r : Fin a) (c : Fin b) :
    broadcastTo ⟨2, ![a, b]⟩
        (transpose ⟨2, ![1, b]⟩ [1, 0] (shapeCast ⟨2, ![b, 1]⟩ (multiReduction .add [1] ⟨1, ![b]⟩ w acc h hφ hacc) h2) h3) h4
        (ix2 r c)
      = ∑ k : Fin n, w (ix2 c k) := by
  rw [broadcastTo_1b_ab_apply, transpose_ix2_apply, column_apply]
  exact laneSum_apply w acc h hφ hacc c

/-- The product's left operand index at (i, q): row i₀ … -/
theorem lhs_dot_0 (i : S256x10.Idx) (q : dot_S256x128_S128x10_S256x10_1_0_0_1_n_n.contr.Idx) :
    (dot_S256x128_S128x10_S256x10_1_0_0_1_n_n.lhsIdx i q 0).val = (i 0).val := by
  unfold DotDims.lhsIdx
  rw [dif_neg (show ¬(0 : Fin S256x128.rank) ∈ dot_S256x128_S128x10_S256x10_1_0_0_1_n_n.lhsBatch by decide),
    dif_pos (show (0 : Fin S256x128.rank) ∈ dot_S256x128_S128x10_S256x10_1_0_0_1_n_n.lhsNonContracting by decide)]
  rfl
/-- … and the contracted coordinate on its second axis. -/
theorem lhs_dot_1 (i : S256x10.Idx) (q : dot_S256x128_S128x10_S256x10_1_0_0_1_n_n.contr.Idx) :
    (dot_S256x128_S128x10_S256x10_1_0_0_1_n_n.lhsIdx i q 1).val = (q ⟨0, by decide⟩).val :=
  dot_S256x128_S128x10_S256x10_1_0_0_1_n_n.lhsIdx_val_of_single rfl i q
/-- The right operand index at (i, q): the contracted coordinate on its first axis … -/
theorem rhs_dot_0 (i : S256x10.Idx) (q : dot_S256x128_S128x10_S256x10_1_0_0_1_n_n.contr.Idx) :
    (dot_S256x128_S128x10_S256x10_1_0_0_1_n_n.rhsIdx i q 0).val = (q ⟨0, by decide⟩).val :=
  dot_S256x128_S128x10_S256x10_1_0_0_1_n_n.rhsIdx_val_of_single rfl i q
/-- … and column i₁. -/
theorem rhs_dot_1 (i : S256x10.Idx) (q : dot_S256x128_S128x10_S256x10_1_0_0_1_n_n.contr.Idx) :
    (dot_S256x128_S128x10_S256x10_1_0_0_1_n_n.rhsIdx i q 1).val = (i 1).val := by
  unfold DotDims.rhsIdx
  rw [dif_neg (show ¬(1 : Fin S128x10.rank) ∈ dot_S256x128_S128x10_S256x10_1_0_0_1_n_n.rhsBatch by decide),
    dif_pos (show (1 : Fin S128x10.rank) ∈ dot_S256x128_S128x10_S256x10_1_0_0_1_n_n.rhsNonContracting by decide)]
  rfl

/-- The [256,128] × [128,10] product onto a zero accumulator, at (r, c): Σ_k A[r,k] · B[k,c]. -/
theorem matmul_zero_apply (prec : Option ContractPrecision) (A : FVec Ideal S256x128 .f32) (B : FVec Ideal S128x10 .f32)
    (r : Fin 256) (c : Fin 10) :
    matmul dot_S256x128_S128x10_S256x10_1_0_0_1_n_n prec A B (constant S256x10 .f32 0x00000000#32) (ix2 r c)
      = ∑ k : Fin 128, A (ix2 r k) * B (ix2 k c) := by
  simp only [matmul]
  rw [Ideal.matmul_constant_zero_apply,
    ← Equiv.sum_comp (contrEquiv1 dot_S256x128_S128x10_S256x10_1_0_0_1_n_n 128 rfl rfl).symm]
  refine Finset.sum_congr rfl fun k _ => ?_
  have hk := contrEquiv1_symm_val dot_S256x128_S128x10_S256x10_1_0_0_1_n_n 128 rfl rfl k
  have el : dot_S256x128_S128x10_S256x10_1_0_0_1_n_n.lhsIdx (ix2 r c)
      ((contrEquiv1 dot_S256x128_S128x10_S256x10_1_0_0_1_n_n 128 rfl rfl).symm k) = ix2 r k :=
    funext fun a => Fin.ext (by
      match a with
      | ⟨0, _⟩ => exact lhs_dot_0 _ _
      | ⟨1, _⟩ => exact (lhs_dot_1 _ _).trans hk)
  have er : dot_S256x128_S128x10_S256x10_1_0_0_1_n_n.rhsIdx (ix2 r c)
      ((contrEquiv1 dot_S256x128_S128x10_S256x10_1_0_0_1_n_n 128 rfl rfl).symm k) = ix2 k c :=
    funext fun a => Fin.ext (by
      match a with
      | ⟨0, _⟩ => exact (rhs_dot_0 _ _).trans hk
      | ⟨1, _⟩ => exact rhs_dot_1 _ _)
  rw [el, er]

/-- The distance table at (r, c): √max(‖z_r‖² + ‖c_c‖² − 2 z_r·c_c, 0). -/
theorem pay4_apply (v11 : Vec Ideal S10x128 .f32) (v13 : Vec Ideal S256x128 .f32) (r : Fin 256) (c : Fin 10) :
    k0_pay4 (F := Ideal) v11 v13 (ix2 r c)
      = Cert.Loss.distK (fun k => v13 (ix2 r k)) (fun j k => v11 (ix2 j k)) c := by
  unfold k0_pay4 Cert.Loss.distK
  rw [shapeCast_self]
  show Ideal.sqrt (max ((broadcastTo S256x10 _ _ (ix2 r c) + broadcastTo S256x10 _ _ (ix2 r c))
      - Ideal.ofBits .f32 0x40000000#32 * matmul (F := Ideal) _ _ _ _ _ (ix2 r c)) (Ideal.ofBits .f32 0x00000000#32)) = _
  refine congrArg (fun t => Ideal.sqrt (max t (Ideal.ofBits .f32 0x00000000#32)))
    (congrArg₂ (· - ·) (congrArg₂ (· + ·) ?_ ?_) (congrArg (Ideal.ofBits .f32 0x40000000#32 * ·) ?_))
  · exact rowNorm_apply _ _ _ _ _ _ _ r c
  · exact colNorm_apply _ _ _ _ _ _ _ _ r c
  · refine (matmul_zero_apply _ _ _ r c).trans (Finset.sum_congr rfl fun k _ => ?_)
    rw [transpose_ix2_apply]

/-- The triplet-centre block: every entry is Σ_r of the row's hinge over its expanded distances and its class word. -/
theorem pay1_apply (v11 : Vec Ideal S10x128 .f32) (v13 : Vec Ideal S256x128 .f32) (v32 : Vec Ideal S256x1 .i32) (j : S1x8x128.Idx) :
    k0_pay1 (F := Ideal) (k0_pay4 v11 v13) (k0_pay5 v32) (Scalar.ofBits .f32 0x00000000#32) j
      = ∑ r : Fin 256, Cert.Loss.tcOf (Cert.Loss.distK (fun k => v13 (ix2 r k)) (fun j k => v11 (ix2 j k))) (v32 (ix2 r 0)) := by
  unfold k0_pay1
  refine (spread_apply _ _ _ _ j).trans ?_
  refine (rowSum_apply _ _ _ _ _).trans ?_
  refine Finset.sum_congr rfl fun r _ => ?_
  unfold Cert.Loss.tcOf
  show max ((shapeCast S256x1 _ _ (ix2 r 0) + Ideal.ofBits .f32 0x3DCCCCCD#32) - shapeCast S256x1 _ _ (ix2 r 0))
      (Ideal.ofBits .f32 0x00000000#32) = _
  rw [column_apply, column_apply]
  refine congrArg (fun t => max t (Ideal.ofBits .f32 0x00000000#32))
    (congrArg₂ (· - ·) (congrArg (· + Ideal.ofBits .f32 0x3DCCCCCD#32) ?_) ?_)
  · refine (laneSum_apply _ _ _ _ _ r).trans (Finset.sum_congr rfl fun c _ => ?_)
    show Scalar.select (k0_pay5 v32 (ix2 r c)) (k0_pay4 v11 v13 (ix2 r c)) _ = _
    rw [pay5_apply, pay4_apply, select_cmpi_eq]
    rfl
  · refine (laneMin_apply _ _ _ _ _ r).trans ?_
    refine congrArg (fun f => (Finset.univ : Finset (Fin 10)).fold min (Ideal.ofBits .f32 0x7F800000#32) f)
      (funext fun c => ?_)
    show Scalar.select (k0_pay5 v32 (ix2 r c)) _ (k0_pay4 v11 v13 (ix2 r c)) = _
    rw [pay5_apply, pay4_apply, select_cmpi_eq]
    rfl

end Cert.KernelIdeal.Pay

end
-- ==== Proof.KernelArrays.lean ====
/-
  What the region leaves in its three result arrays [16, 8, 128], at the ideal instance. Grid point t works on tile t:
  its blocks of x, x̂, z_in, z_out and of the class column are rows 256 t … 256 t + 255 of those arrays, its block of the
  centres is the whole table, and its block of each result array is the slab (t, ·, ·). The body fills each result block
  with one number — the tile's sum of squared differences, of triplet-centre hinges, of outlier hinges — so after the
  sixteen write-backs, which together cover the arrays, entry (t, a, b) of a result array is tile t's number.
-/
import proofs.«421998_j16509854286417_3_alg».proof.Proof.Gen.KernelIdeal.Frame
import proofs.«421998_j16509854286417_3_alg».proof.Proof.Gen.ReferenceIdeal.Read
import proofs.«421998_j16509854286417_3_alg».proof.Proof.Spec
import proofs.«421998_j16509854286417_3_alg».proof.Proof.KernelPayload
import proofs.«421998_j16509854286417_3_alg».proof.Proof.KernelHost
import Idealize.ShloMosaic.Lib.Pipeline.Value
import Idealize.ShloMosaic.Lib.ValueIdx

set_option maxRecDepth 16384

noncomputable section

namespace Cert.KernelIdeal.Arrays

open Cert.KernelIdeal Cert.KernelIdeal.Gen Idealize.ShloMosaic Idealize.ShloMosaic.TcCoe Idealize.SL.Sem Idealize.ShloMosaic.ValueIdx
open Idealize.ShloMosaic.Pipeline (Dat)
open Cert.KernelIdeal
variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the grid: the batch windows and the result windows sit at block t on the leading axis,
    at block 0 on the others; the centres' window is always its whole table. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 3) = t.val ∧ win0_6.index t (1 : Fin 3) = 0 ∧ win0_6.index t (2 : Fin 3) = 0
    ∧ win0_7.index t (0 : Fin 3) = t.val ∧ win0_7.index t (1 : Fin 3) = 0 ∧ win0_7.index t (2 : Fin 3) = 0
    ∧ win0_8.index t (0 : Fin 3) = t.val ∧ win0_8.index t (1 : Fin 3) = 0 ∧ win0_8.index t (2 : Fin 3) = 0 :=
  (by decide +kernel : ∀ t : Fin grid0.N, _)

/-- The tile a grid point works on. -/
def tile (t : Fin cfg0.N) : Fin 16 := ⟨t.val, t.isLt⟩

/-! ## The input blocks -/

/-- Block t of x: entry (r, cc) is x[256 t + r, cc]. -/
theorem blk0 (c : Dev nD) (t : Fin cfg0.N) (r : Fin 256) (cc : Fin 3072) :
    (Gen.iblk m c 0 t : S256x3072.Idx → EReal) (ix2 r cc)
      = (m ((c.tc : Thread nD τ).loc main_arg0) : S4096x3072.Idx → EReal) (ix2 (Cert.Loss.row (tile t) r) cc) := by
  obtain ⟨e0, e1, -⟩ := idx_facts t
  rw [← Gen.V_main_arg0 m c]
  show (Gen.V m c main_arg0 : S4096x3072.Idx → EReal) (((cfg0.win 0).blk t).view.emb (ix2 r cc)) = _
  refine congrArg _ (funext fun a => Fin.ext ?_)
  match a with
  | ⟨0, _⟩ => show win0_0.index t (0 : Fin 2) * 256 + 1 * r.val = 256 * t.val + r.val; omega
  | ⟨1, _⟩ => show win0_0.index t (1 : Fin 2) * 3072 + 1 * cc.val = cc.val; omega

/-- Block t of x̂. -/
theorem blk1 (c : Dev nD) (t : Fin cfg0.N) (r : Fin 256) (cc : Fin 3072) :
    (Gen.iblk m c 1 t : S256x3072.Idx → EReal) (ix2 r cc)
      = (m ((c.tc : Thread nD τ).loc main_arg1) : S4096x3072.Idx → EReal) (ix2 (Cert.Loss.row (tile t) r) cc) := by
  obtain ⟨-, -, e0, e1, -⟩ := idx_facts t
  rw [← Gen.V_main_arg1 m c]
  show (Gen.V m c main_arg1 : S4096x3072.Idx → EReal) (((cfg0.win 1).blk t).view.emb (ix2 r cc)) = _
  refine congrArg _ (funext fun a => Fin.ext ?_)
  match a with
  | ⟨0, _⟩ => show win0_1.index t (0 : Fin 2) * 256 + 1 * r.val = 256 * t.val + r.val; omega
  | ⟨1, _⟩ => show win0_1.index t (1 : Fin 2) * 3072 + 1 * cc.val = cc.val; omega

/-- Block t of z_in. -/
theorem blk2 (c : Dev nD) (t : Fin cfg0.N) (r : Fin 256) (k : Fin 128) :
    (Gen.iblk m c 2 t : S256x128.Idx → EReal) (ix2 r k)
      = (m ((c.tc : Thread nD τ).loc main_arg3) : S4096x128.Idx → EReal) (ix2 (Cert.Loss.row (tile t) r) k) := by
  obtain ⟨-, -, -, -, e0, e1, -⟩ := idx_facts t
  rw [← Gen.V_main_arg3 m c]
  show (Gen.V m c main_arg3 : S4096x128.Idx → EReal) (((cfg0.win 2).blk t).view.emb (ix2 r k)) = _
  refine congrArg _ (funext fun a => Fin.ext ?_)
  match a with
  | ⟨0, _⟩ => show win0_2.index t (0 : Fin 2) * 256 + 1 * r.val = 256 * t.val + r.val; omega
  | ⟨1, _⟩ => show win0_2.index t (1 : Fin 2) * 128 + 1 * k.val = k.val; omega

/-- Block t of z_out. -/
theorem blk3 (c : Dev nD) (t : Fin cfg0.N) (r : Fin 256) (k : Fin 128) :
    (Gen.iblk m c 3 t : S256x128.Idx → EReal) (ix2 r k)
      = (m ((c.tc : Thread nD τ).loc main_arg4) : S4096x128.Idx → EReal) (ix2 (Cert.Loss.row (tile t) r) k) := by
  obtain ⟨-, -, -, -, -, -, e0, e1, -⟩ := idx_facts t
  rw [← Gen.V_main_arg4 m c]
  show (Gen.V m c main_arg4 : S4096x128.Idx → EReal) (((cfg0.win 3).blk t).view.emb (ix2 r k)) = _
  refine congrArg _ (funext fun a => Fin.ext ?_)
  match a with
  | ⟨0, _⟩ => show win0_3.index t (0 : Fin 2) * 256 + 1 * r.val = 256 * t.val + r.val; omega
  | ⟨1, _⟩ => show win0_3.index t (1 : Fin 2) * 128 + 1 * k.val = k.val; omega

/-- The centres' block is the whole normalised table. -/
theorem blk4 (c : Dev nD) (t : Fin cfg0.N) (j : Fin 10) (k : Fin 128) :
    (Gen.iblk m c 4 t : S10x128.Idx → EReal) (ix2 j k)
      = Cert.ReferenceIdeal.Read.val_main_v2 (F := Ideal) (m ((c.tc : Thread nD τ).loc main_arg5)) (ix2 j k) := by
  obtain ⟨-, -, -, -, -, -, -, -, e0, e1, -⟩ := idx_facts t
  rw [← Host.V_centres m c]
  show (Gen.V m c main_v2 : S10x128.Idx → EReal) (((cfg0.win 4).blk t).view.emb (ix2 j k)) = _
  refine congrArg _ (funext fun a => Fin.ext ?_)
  match a with
  | ⟨0, _⟩ => show win0_4.index t (0 : Fin 2) * 10 + 1 * j.val = j.val; omega
  | ⟨1, _⟩ => show win0_4.index t (1 : Fin 2) * 128 + 1 * k.val = k.val; omega

/-- Block t of the class column. -/
theorem blk5 (c : Dev nD) (t : Fin cfg0.N) (r : Fin 256) :
    (Gen.iblk m c 5 t : S256x1.Idx → BitVec 32) (ix2 r 0)
      = (m ((c.tc : Thread nD τ).loc main_arg2) : S4096.Idx → BitVec 32) (ix1 (Cert.Loss.row (tile t) r)) := by
  obtain ⟨-, -, -, -, -, -, -, -, -, -, e0, e1, -⟩ := idx_facts t
  rw [← Host.V_target m c]
  show (Gen.V m c main_v13 : S4096x1.Idx → BitVec 32) (((cfg0.win 5).blk t).view.emb (ix2 r 0)) = _
  refine congrArg _ (funext fun a => Fin.ext ?_)
  match a with
  | ⟨0, _⟩ => show win0_5.index t (0 : Fin 2) * 256 + 1 * r.val = 256 * t.val + r.val; omega
  | ⟨1, _⟩ => show win0_5.index t (1 : Fin 2) * 1 + 1 * 0 = 0; omega

/-! ## The three result arrays -/

/-- The leading coordinate of an index of point t's result block is t. -/
theorem emb6_0 (t : Fin cfg0.N) (j : S1x8x128.Idx) : (((cfg0.win 6).blk t).view.emb j) 0 = tile t := by
  obtain ⟨-, -, -, -, -, -, -, -, -, -, -, -, e0, -⟩ := idx_facts t
  refine Fin.ext ?_
  show win0_6.index t (0 : Fin 3) * 1 + 1 * (j 0).val = t.val
  have hj : (j 0).val < 1 := (j 0).isLt
  omega

/-- What point t writes back to the first result array: its block of "entry (s, ·, ·) is tile s's sum of squared differences". -/
theorem flushed6 (c : Dev nD) (t : Fin cfg0.N) :
    (Gen.dats m 0 c).flushed 6 t = ((cfg0.win 6).blk t).view.read (Elt Ideal)
      (fun i : S16x8x128.Idx => Cert.Loss.mseTile (Cert.Loss.at2 (m ((c.tc : Thread nD τ).loc main_arg0))) (Cert.Loss.at2 (m ((c.tc : Thread nD τ).loc main_arg1))) (i 0)) := by
  show (cfg0.win 6).cut (grid0.coords t) ((Gen.dats m 0 c).after 6 t) = _
  rw [Gen.after0_6]
  unfold Gen.out0_6
  rw [View.canon_unit_zero hz3]
  simp only [View.ld_unit_zero (S := S256x3072) hz2]
  funext j
  show k0_pay3 (F := Ideal) (Gen.iblk m c 0 t) (Gen.iblk m c 1 t) j
    = Cert.Loss.mseTile (Cert.Loss.at2 (m ((c.tc : Thread nD τ).loc main_arg0))) (Cert.Loss.at2 (m ((c.tc : Thread nD τ).loc main_arg1))) ((((cfg0.win 6).blk t).view.emb j) 0)
  rw [emb6_0]
  refine (Pay.pay3_apply _ _ j).trans ?_
  unfold Cert.Loss.mseTile Cert.Loss.sq Cert.Loss.at2
  refine Finset.sum_congr rfl fun r _ => Finset.sum_congr rfl fun cc _ => ?_
  rw [blk0, blk1]

/-- An index of a result array is in point t's block iff each coordinate is in the block's range. -/
theorem mem_blk6 (t : Fin cfg0.N) (i : S16x8x128.Idx) :
    i ∈ ((cfg0.win 6).blk t).view.set ↔ ∀ a : Fin 3, win0_6.index t a * S1x8x128.size a ≤ (i a).val ∧ (i a).val < win0_6.index t a * S1x8x128.size a + S1x8x128.size a := by
  show i ∈ ((View.whole main_v14_0).slice (win0_6.rect t)).set ↔ _
  rw [View.set_slice_whole, Rect.mem_set_unit]
  exact Iff.rfl

/-- Every index of the first result array is written back by the point of its leading coordinate. -/
theorem cover6 (i : S16x8x128.Idx) : ∃ t : Fin cfg0.N, (cfg0.win 6).flush t = true ∧ i ∈ ((cfg0.win 6).blk t).view.set := by
  have hi0 : (i 0).val < 16 := (i 0).isLt
  have hi1 : (i 1).val < 8 := (i 1).isLt
  have hi2 : (i 2).val < 128 := (i 2).isLt
  refine ⟨⟨(i 0).val, hi0⟩, Gen.flush0_6 _, ?_⟩
  rw [mem_blk6]
  obtain ⟨-, -, -, -, -, -, -, -, -, -, -, -, e0, e1, e2, -⟩ := idx_facts ⟨(i 0).val, hi0⟩
  intro a
  match a with
  | ⟨0, _⟩ => show win0_6.index ⟨(i 0).val, hi0⟩ (0 : Fin 3) * 1 ≤ (i 0).val ∧ (i 0).val < win0_6.index ⟨(i 0).val, hi0⟩ (0 : Fin 3) * 1 + 1; simp only [] at e0; omega
  | ⟨1, _⟩ => show win0_6.index ⟨(i 0).val, hi0⟩ (1 : Fin 3) * 8 ≤ (i 1).val ∧ (i 1).val < win0_6.index ⟨(i 0).val, hi0⟩ (1 : Fin 3) * 8 + 8; omega
  | ⟨2, _⟩ => show win0_6.index ⟨(i 0).val, hi0⟩ (2 : Fin 3) * 128 ≤ (i 2).val ∧ (i 2).val < win0_6.index ⟨(i 0).val, hi0⟩ (2 : Fin 3) * 128 + 128; omega

/-- The first result array after the run: entry (t, ·, ·) is tile t's sum of squared differences. -/
theorem arr6 (c : Dev nD) :
    ((Gen.dats m 0 c).arrAt 6 cfg0.N : S16x8x128.Idx → EReal)
      = fun i => Cert.Loss.mseTile (Cert.Loss.at2 (m ((c.tc : Thread nD τ).loc main_arg0))) (Cert.Loss.at2 (m ((c.tc : Thread nD τ).loc main_arg1))) (i 0) :=
  (Gen.dats m 0 c).arrAt_eq_of_cover 6 _ (fun t _ => flushed6 m c t) cover6

/-- The leading coordinate of an index of point t's block of result array 2 is t. -/
theorem emb7_0 (t : Fin cfg0.N) (j : S1x8x128.Idx) : (((cfg0.win 7).blk t).view.emb j) 0 = tile t := by
  obtain ⟨-, -, -, -, -, -, -, -, -, -, -, -, -, -, -, e0, -⟩ := idx_facts t
  refine Fin.ext ?_
  show win0_7.index t (0 : Fin 3) * 1 + 1 * (j 0).val = t.val
  have hj : (j 0).val < 1 := (j 0).isLt
  omega

theorem mem_blk7 (t : Fin cfg0.N) (i : S16x8x128.Idx) :
    i ∈ ((cfg0.win 7).blk t).view.set ↔ ∀ a : Fin 3, win0_7.index t a * S1x8x128.size a ≤ (i a).val ∧ (i a).val < win0_7.index t a * S1x8x128.size a + S1x8x128.size a := by
  show i ∈ ((View.whole main_v14_1).slice (win0_7.rect t)).set ↔ _
  rw [View.set_slice_whole, Rect.mem_set_unit]
  exact Iff.rfl

theorem cover7 (i : S16x8x128.Idx) : ∃ t : Fin cfg0.N, (cfg0.win 7).flush t = true ∧ i ∈ ((cfg0.win 7).blk t).view.set := by
  have hi0 : (i 0).val < 16 := (i 0).isLt
  have hi1 : (i 1).val < 8 := (i 1).isLt
  have hi2 : (i 2).val < 128 := (i 2).isLt
  refine ⟨⟨(i 0).val, hi0⟩, Gen.flush0_7 _, ?_⟩
  rw [mem_blk7]
  obtain ⟨-, -, -, -, -, -, -, -, -, -, -, -, -, -, -, e0, e1, e2, -⟩ := idx_facts ⟨(i 0).val, hi0⟩
  intro a
  match a with
  | ⟨0, _⟩ => show win0_7.index ⟨(i 0).val, hi0⟩ (0 : Fin 3) * 1 ≤ (i 0).val ∧ (i 0).val < win0_7.index ⟨(i 0).val, hi0⟩ (0 : Fin 3) * 1 + 1; simp only [] at e0; omega
  | ⟨1, _⟩ => show win0_7.index ⟨(i 0).val, hi0⟩ (1 : Fin 3) * 8 ≤ (i 1).val ∧ (i 1).val < win0_7.index ⟨(i 0).val, hi0⟩ (1 : Fin 3) * 8 + 8; omega
  | ⟨2, _⟩ => show win0_7.index ⟨(i 0).val, hi0⟩ (2 : Fin 3) * 128 ≤ (i 2).val ∧ (i 2).val < win0_7.index ⟨(i 0).val, hi0⟩ (2 : Fin 3) * 128 + 128; omega

/-- What point t writes back to the second result array: its block of "entry (s, ·, ·) is tile s's sum of triplet-centre hinges". -/
theorem flushed7 (c : Dev nD) (t : Fin cfg0.N) :
    (Gen.dats m 0 c).flushed 7 t = ((cfg0.win 7).blk t).view.read (Elt Ideal)
      (fun i : S16x8x128.Idx => Cert.Loss.tcTileK (Cert.Loss.at2 (m ((c.tc : Thread nD τ).loc main_arg3)))
        (Cert.Loss.at2 (Cert.ReferenceIdeal.Read.val_main_v2 (F := Ideal) (m ((c.tc : Thread nD τ).loc main_arg5))))
        (Cert.Loss.at1 (m ((c.tc : Thread nD τ).loc main_arg2))) (i 0)) := by
  show (cfg0.win 7).cut (grid0.coords t) ((Gen.dats m 0 c).after 7 t) = _
  rw [Gen.after0_7]
  unfold Gen.out0_7
  rw [View.canon_unit_zero hz3]
  simp only [View.ld_unit_zero (S := S10x128) hz2, View.ld_unit_zero (S := S256x128) hz2, View.ld_unit_zero (S := S256x1) hz2]
  funext j
  show k0_pay1 (F := Ideal) (k0_pay4 (Gen.iblk m c 4 t) (Gen.iblk m c 2 t)) (k0_pay5 (Gen.iblk m c 5 t)) (Scalar.ofBits .f32 0x00000000#32) j
    = Cert.Loss.tcTileK (Cert.Loss.at2 (m ((c.tc : Thread nD τ).loc main_arg3)))
        (Cert.Loss.at2 (Cert.ReferenceIdeal.Read.val_main_v2 (F := Ideal) (m ((c.tc : Thread nD τ).loc main_arg5))))
        (Cert.Loss.at1 (m ((c.tc : Thread nD τ).loc main_arg2))) ((((cfg0.win 7).blk t).view.emb j) 0)
  rw [emb7_0]
  refine (Pay.pay1_apply _ _ _ j).trans ?_
  unfold Cert.Loss.tcTileK
  refine Finset.sum_congr rfl fun r _ => ?_
  have hz : (fun k : Fin 128 => (Gen.iblk m c 2 t : S256x128.Idx → EReal) (ix2 r k))
      = Cert.Loss.at2 (m ((c.tc : Thread nD τ).loc main_arg3)) (Cert.Loss.row (tile t) r) := funext fun k => blk2 m c t r k
  have hc : (fun (j : Fin 10) (k : Fin 128) => (Gen.iblk m c 4 t : S10x128.Idx → EReal) (ix2 j k))
      = Cert.Loss.at2 (Cert.ReferenceIdeal.Read.val_main_v2 (F := Ideal) (m ((c.tc : Thread nD τ).loc main_arg5))) :=
    funext fun j => funext fun k => blk4 m c t j k
  have hw : (Gen.iblk m c 5 t : S256x1.Idx → BitVec 32) (ix2 r 0) = Cert.Loss.at1 (m ((c.tc : Thread nD τ).loc main_arg2)) (Cert.Loss.row (tile t) r) :=
    blk5 m c t r
  rw [hz, hc, hw]

/-- The second result array after the run: entry (t, ·, ·) is tile t's sum of triplet-centre hinges. -/
theorem arr7 (c : Dev nD) :
    ((Gen.dats m 0 c).arrAt 7 cfg0.N : S16x8x128.Idx → EReal)
      = fun i => Cert.Loss.tcTileK (Cert.Loss.at2 (m ((c.tc : Thread nD τ).loc main_arg3)))
        (Cert.Loss.at2 (Cert.ReferenceIdeal.Read.val_main_v2 (F := Ideal) (m ((c.tc : Thread nD τ).loc main_arg5))))
        (Cert.Loss.at1 (m ((c.tc : Thread nD τ).loc main_arg2))) (i 0) :=
  (Gen.dats m 0 c).arrAt_eq_of_cover 7 _ (fun t _ => flushed7 m c t) cover7

/-- The leading coordinate of an index of point t's block of result array 3 is t. -/
theorem emb8_0 (t : Fin cfg0.N) (j : S1x8x128.Idx) : (((cfg0.win 8).blk t).view.emb j) 0 = tile t := by
  obtain ⟨-, -, -, -, -, -, -, -, -, -, -, -, -, -, -, -, -, -, e0, -⟩ := idx_facts t
  refine Fin.ext ?_
  show win0_8.index t (0 : Fin 3) * 1 + 1 * (j 0).val = t.val
  have hj : (j 0).val < 1 := (j 0).isLt
  omega

theorem mem_blk8 (t : Fin cfg0.N) (i : S16x8x128.Idx) :
    i ∈ ((cfg0.win 8).blk t).view.set ↔ ∀ a : Fin 3, win0_8.index t a * S1x8x128.size a ≤ (i a).val ∧ (i a).val < win0_8.index t a * S1x8x128.size a + S1x8x128.size a := by
  show i ∈ ((View.whole main_v14_2).slice (win0_8.rect t)).set ↔ _
  rw [View.set_slice_whole, Rect.mem_set_unit]
  exact Iff.rfl

theorem cover8 (i : S16x8x128.Idx) : ∃ t : Fin cfg0.N, (cfg0.win 8).flush t = true ∧ i ∈ ((cfg0.win 8).blk t).view.set := by
  have hi0 : (i 0).val < 16 := (i 0).isLt
  have hi1 : (i 1).val < 8 := (i 1).isLt
  have hi2 : (i 2).val < 128 := (i 2).isLt
  refine ⟨⟨(i 0).val, hi0⟩, Gen.flush0_8 _, ?_⟩
  rw [mem_blk8]
  obtain ⟨-, -, -, -, -, -, -, -, -, -, -, -, -, -, -, -, -, -, e0, e1, e2⟩ := idx_facts ⟨(i 0).val, hi0⟩
  intro a
  match a with
  | ⟨0, _⟩ => show win0_8.index ⟨(i 0).val, hi0⟩ (0 : Fin 3) * 1 ≤ (i 0).val ∧ (i 0).val < win0_8.index ⟨(i 0).val, hi0⟩ (0 : Fin 3) * 1 + 1; simp only [] at e0; omega
  | ⟨1, _⟩ => show win0_8.index ⟨(i 0).val, hi0⟩ (1 : Fin 3) * 8 ≤ (i 1).val ∧ (i 1).val < win0_8.index ⟨(i 0).val, hi0⟩ (1 : Fin 3) * 8 + 8; omega
  | ⟨2, _⟩ => show win0_8.index ⟨(i 0).val, hi0⟩ (2 : Fin 3) * 128 ≤ (i 2).val ∧ (i 2).val < win0_8.index ⟨(i 0).val, hi0⟩ (2 : Fin 3) * 128 + 128; omega

/-- What point t writes back to the third result array: its block of "entry (s, ·, ·) is tile s's sum of outlier hinges". -/
theorem flushed8 (c : Dev nD) (t : Fin cfg0.N) :
    (Gen.dats m 0 c).flushed 8 t = ((cfg0.win 8).blk t).view.read (Elt Ideal)
      (fun i : S16x8x128.Idx => Cert.Loss.outTile (Cert.Loss.at2 (m ((c.tc : Thread nD τ).loc main_arg4))) (i 0)) := by
  show (cfg0.win 8).cut (grid0.coords t) ((Gen.dats m 0 c).after 8 t) = _
  rw [Gen.after0_8]
  unfold Gen.out0_8
  rw [View.canon_unit_zero hz3]
  simp only [View.ld_unit_zero (S := S256x128) hz2]
  funext j
  show k0_pay2 (F := Ideal) (Gen.iblk m c 3 t) j
    = Cert.Loss.outTile (Cert.Loss.at2 (m ((c.tc : Thread nD τ).loc main_arg4))) ((((cfg0.win 8).blk t).view.emb j) 0)
  rw [emb8_0]
  refine (Pay.pay2_apply _ j).trans ?_
  unfold Cert.Loss.outTile
  refine Finset.sum_congr rfl fun r _ => ?_
  have hz : (fun k : Fin 128 => (Gen.iblk m c 3 t : S256x128.Idx → EReal) (ix2 r k))
      = Cert.Loss.at2 (m ((c.tc : Thread nD τ).loc main_arg4)) (Cert.Loss.row (tile t) r) := funext fun k => blk3 m c t r k
  rw [hz]

/-- The third result array after the run: entry (t, ·, ·) is tile t's sum of outlier hinges. -/
theorem arr8 (c : Dev nD) :
    ((Gen.dats m 0 c).arrAt 8 cfg0.N : S16x8x128.Idx → EReal)
      = fun i => Cert.Loss.outTile (Cert.Loss.at2 (m ((c.tc : Thread nD τ).loc main_arg4))) (i 0) :=
  (Gen.dats m 0 c).arrAt_eq_of_cover 8 _ (fun t _ => flushed8 m c t) cover8

end Cert.KernelIdeal.Arrays

end
-- ==== Proof.KernelValue.lean ====
/-
  The kernel program's result, at the ideal instance, as the loss of its arguments: the three result arrays hold the
  tiles' sums, the host adds the sixteen tiles up and puts the four terms together.
-/
import proofs.«421998_j16509854286417_3_alg».proof.Proof.Gen.KernelIdeal.Frame
import proofs.«421998_j16509854286417_3_alg».proof.Proof.Gen.ReferenceIdeal.Read
import proofs.«421998_j16509854286417_3_alg».proof.Proof.Spec
import proofs.«421998_j16509854286417_3_alg».proof.Proof.KernelHost
import proofs.«421998_j16509854286417_3_alg».proof.Proof.KernelArrays

noncomputable section

namespace Cert.KernelIdeal.KValue

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-- The value the run leaves in the result buffer. -/
theorem kernel_value (c : Dev nD) :
    (Pipeline.afterTail₀ cfgs (Gen.dats m) 0 (Gen.V0 m) [Gen.hostOps1] c main_v32 : S_.Idx → EReal)
      = fun _ => Cert.Loss.total
          (∑ t : Fin 16, Cert.Loss.mseTile (Cert.Loss.at2 (m ((c.tc : Thread nD τ).loc main_arg0))) (Cert.Loss.at2 (m ((c.tc : Thread nD τ).loc main_arg1))) t)
          (∑ t : Fin 16, Cert.Loss.tcTileK (Cert.Loss.at2 (m ((c.tc : Thread nD τ).loc main_arg3)))
            (Cert.Loss.at2 (Cert.ReferenceIdeal.Read.val_main_v2 (F := Ideal) (m ((c.tc : Thread nD τ).loc main_arg5))))
            (Cert.Loss.at1 (m ((c.tc : Thread nD τ).loc main_arg2))) t)
          (∑ t : Fin 16, Cert.Loss.outTile (Cert.Loss.at2 (m ((c.tc : Thread nD τ).loc main_arg4))) t)
          (Cert.ReferenceIdeal.Read.val_main_v56 (F := Ideal) (m ((c.tc : Thread nD τ).loc main_arg5)) ix0) := by
  rw [Cert.KernelIdeal.Host.tail_value m c _ _ _ (Cert.KernelIdeal.Arrays.arr6 m c) (Cert.KernelIdeal.Arrays.arr7 m c) (Cert.KernelIdeal.Arrays.arr8 m c)]
  have e : ∀ t : Fin 16, (ix3 t (0 : Fin 8) (0 : Fin 128) : S16x8x128.Idx) 0 = t := fun t => rfl
  simp only [e]

end Cert.KernelIdeal.KValue

end
-- ==== Proof.Claims.lean ====
/-
  The certificate's five claims. The two kernel frames are the generated ones, the reference's frame is its generated
  run with the result dropped, and the idealization rewrote nothing. For the value claim: the kernel's run leaves in
  its result buffer the total over the tiles' sums with the expanded distances, the reference's run the total over the
  batch's sums with the direct distances, both over the same normalised centres and the same orthogonality term; under
  the precondition the latent rows and the centre table are real and the class words are in 0..9, so the two totals are
  one number (if a centre row is all zeros both are +∞).
-/
import proofs.«421998_j16509854286417_3_alg».proof.Defs
import proofs.«421998_j16509854286417_3_alg».proof.Proof.Gen.Kernel.Frame
import proofs.«421998_j16509854286417_3_alg».proof.Proof.Gen.KernelIdeal.Frame
import proofs.«421998_j16509854286417_3_alg».proof.Proof.Gen.ReferenceIdeal.Run
import proofs.«421998_j16509854286417_3_alg».proof.Proof.Gen.ReferenceIdeal.Read
import proofs.«421998_j16509854286417_3_alg».proof.Proof.Gen.Pre_finite_inputs
import proofs.«421998_j16509854286417_3_alg».proof.Proof.Spec
import proofs.«421998_j16509854286417_3_alg».proof.Proof.Algebra
import proofs.«421998_j16509854286417_3_alg».proof.Proof.Bridge
import proofs.«421998_j16509854286417_3_alg».proof.Proof.PreFacts
import proofs.«421998_j16509854286417_3_alg».proof.Proof.Centres
import proofs.«421998_j16509854286417_3_alg».proof.Proof.RefValue
import proofs.«421998_j16509854286417_3_alg».proof.Proof.KernelValue

noncomputable section

namespace Cert.Proof.Claims

open Idealize.ShloMosaic Idealize.ShloMosaic.TcCoe Idealize.SL.Sem Idealize.ShloMosaic.ValueIdx

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)
theorem preserves : Cert.preserves_Kernel_KernelIdeal := trivial

theorem algebraic : Cert.algebraic_KernelIdeal_ReferenceIdeal := by
  intro m ρ m' ρ' hpre hagree
  refine ⟨fun c => Pipeline.afterTail₀ Cert.KernelIdeal.cfgs (Cert.KernelIdeal.Gen.dats m) 0 (Cert.KernelIdeal.Gen.V0 m) [Cert.KernelIdeal.Gen.hostOps1] c Cert.KernelIdeal.main_v32, ?_, ?_⟩
  · -- the kernel's run: the result buffer as the lines after the region leave it, the arguments unchanged
    exact (θ_run Cert.KernelIdeal.defs _ _).mono (fun r h c => ⟨
        (h c).2 Cert.KernelIdeal.main_v32 (Pipeline.mem_restRefs_of Cert.KernelIdeal.main_v32 (by decide) (by decide)),
        ((h c).1 0).trans (((Cert.KernelIdeal.Gen.dats m 0 c).arrAt_in 0 rfl _).trans ((Cert.KernelIdeal.Gen.A_eq m c 0).trans (Cert.KernelIdeal.Gen.V_main_arg0 m c))),
        ((h c).1 1).trans (((Cert.KernelIdeal.Gen.dats m 0 c).arrAt_in 1 rfl _).trans ((Cert.KernelIdeal.Gen.A_eq m c 1).trans (Cert.KernelIdeal.Gen.V_main_arg1 m c))),
        ((h c).2 Cert.KernelIdeal.main_arg2 (Pipeline.mem_restRefs_of Cert.KernelIdeal.main_arg2 (by decide) (by decide))).trans (Cert.KernelIdeal.Gen.W_main_arg2 m (Cert.KernelIdeal.Gen.dats m) c),
        ((h c).1 2).trans (((Cert.KernelIdeal.Gen.dats m 0 c).arrAt_in 2 rfl _).trans ((Cert.KernelIdeal.Gen.A_eq m c 2).trans (Cert.KernelIdeal.Gen.V_main_arg3 m c))),
        ((h c).1 3).trans (((Cert.KernelIdeal.Gen.dats m 0 c).arrAt_in 3 rfl _).trans ((Cert.KernelIdeal.Gen.A_eq m c 3).trans (Cert.KernelIdeal.Gen.V_main_arg4 m c))),
        ((h c).2 Cert.KernelIdeal.main_arg5 (Pipeline.mem_restRefs_of Cert.KernelIdeal.main_arg5 (by decide) (by decide))).trans (Cert.KernelIdeal.Gen.W_main_arg5 m (Cert.KernelIdeal.Gen.dats m) c)⟩) (Cert.KernelIdeal.Gen.run_main m ρ)
  · -- the reference's run: its result is the same number
    refine (θ_run Cert.ReferenceIdeal.defs _ _).mono (fun r h c => ⟨(h c).1.trans ?_, (h c).2⟩)
      (Cert.ReferenceIdeal.Value.run (F := Ideal) m' ρ')
    -- the precondition: real latent rows, a real centre table, class words in 0..9
    obtain ⟨hzi, hca, htg⟩ := Cert.PreFacts.decode _ _ _ _ _ _ (hpre c)
    -- the reference's result read at the kernel's arguments
    rw [Cert.ReferenceIdeal.Read.val_main_v62_eq, (hagree c).1, (hagree c).2.1, (hagree c).2.2.1, (hagree c).2.2.2.1,
      (hagree c).2.2.2.2.1, (hagree c).2.2.2.2.2, Cert.ReferenceIdeal.RefValue.ref_value _ _ _ _ _ _ htg]
    refine ((Cert.KernelIdeal.KValue.kernel_value m c).trans (funext fun _ => ?_)).symm
    refine Cert.Loss.bridge _ _ _ _ _ _ _ (fun b k => hzi (ix2 b k)) ?_
    -- the normalised centres are real unless a row of the table is all zeros, and then the orthogonality term is +∞
    by_cases hrow : ∀ j : Fin 10, ∃ k : Fin 128,
        (m ((c.tc : Thread Cert.KernelIdeal.nD Cert.KernelIdeal.τ).loc Cert.KernelIdeal.main_arg5) :
          Cert.ReferenceIdeal.S10x128.Idx → EReal) (ix2 j k) ≠ (0 : EReal)
    · exact Or.inl fun j k => Cert.ReferenceIdeal.Centres.centres_real _ hca hrow (ix2 j k)
    · push Not at hrow
      obtain ⟨j, hj⟩ := hrow
      exact Or.inr (Cert.ReferenceIdeal.Centres.orth_top _ hca j hj)

end Cert.Proof.Claims

end
-- ==== Proof.lean ====
/-
  The certificate of a fused loss kernel against its jnp reference, over the extended reals.

  Both programs compute  mse / (4096·3072) + tc / 4096 + out / 4096 + orth  of a batch of 4096 rows: the mean squared
  reconstruction error, the mean triplet-centre hinge max(d(z, c_own) + 0.1 − min_{j ≠ own} d(z, c_j), 0) over the
  normalised centres c_j = a_j / ‖a_j‖, the mean outlier hinge max(1 − ‖z_out‖, 0), and the Frobenius norm of
  C Cᵀ − I. The kernel walks the batch in 16 tiles of 256 rows and leaves one partial sum per tile and term, which the
  host adds up; it spells a distance as √max(‖z‖² + ‖c‖² − 2 z·c, 0) where the reference takes √Σ(z − c)², and the own
  distance as a masked sum where the reference indexes by the class word. Under the precondition — real inputs, class
  words in 0..9 — these are the same numbers: sums regroup freely, ‖z‖² + ‖c‖² − 2 z·c = ‖z − c‖² ≥ 0 on reals, and an
  in-range index picks the masked sum's one term. A centre row of zeros makes its normalisation 0 / 0; then the
  orthogonality term, which both programs compute by the same operations, is +∞ and so are both results.
  The modules: Spec (the loss as mathematics), Algebra and Bridge (the laws), KernelPayload, KernelArrays, KernelHost,
  KernelValue (the kernel's result), RefTc, RefValue (the reference's), Centres (the normalised centres), PreFacts (the
  precondition read), Claims (the five claims).
-/
import proofs.«421998_j16509854286417_3_alg».proof.Defs
import proofs.«421998_j16509854286417_3_alg».proof.Proof.Gen.Kernel
import proofs.«421998_j16509854286417_3_alg».proof.Proof.Gen.Kernel.Skeleton
import proofs.«421998_j16509854286417_3_alg».proof.Proof.Gen.Kernel.Launch
import proofs.«421998_j16509854286417_3_alg».proof.Proof.Gen.Kernel.Points
import proofs.«421998_j16509854286417_3_alg».proof.Proof.Gen.Kernel.Frame
import proofs.«421998_j16509854286417_3_alg».proof.Proof.Gen.KernelIdeal
import proofs.«421998_j16509854286417_3_alg».proof.Proof.Gen.KernelIdeal.Skeleton
import proofs.«421998_j16509854286417_3_alg».proof.Proof.Gen.KernelIdeal.Launch
import proofs.«421998_j16509854286417_3_alg».proof.Proof.Gen.KernelIdeal.Points
import proofs.«421998_j16509854286417_3_alg».proof.Proof.Gen.KernelIdeal.Frame
import proofs.«421998_j16509854286417_3_alg».proof.Proof.Gen.ReferenceIdeal
import proofs.«421998_j16509854286417_3_alg».proof.Proof.Gen.ReferenceIdeal.Run
import proofs.«421998_j16509854286417_3_alg».proof.Proof.Gen.ReferenceIdeal.Read
import proofs.«421998_j16509854286417_3_alg».proof.Proof.Gen.Pre_finite_inputs
import proofs.«421998_j16509854286417_3_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Proof.Claims.frame_p, Cert.Proof.Claims.frame_pi, Cert.Proof.Claims.frame_ri, Cert.Proof.Claims.preserves, Cert.Proof.Claims.algebraic⟩

end Cert.Proof

end
